-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 32000#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x32000 : Shape := ⟨2, ![8192, 32000]⟩
abbrev S8192 : Shape := ⟨1, ![8192]⟩
abbrev S8192x1 : Shape := ⟨2, ![8192, 1]⟩
abbrev S128x32000 : Shape := ⟨2, ![128, 32000]⟩
abbrev S128x1 : Shape := ⟨2, ![128, 1]⟩
abbrev S128x3200 : Shape := ⟨2, ![128, 3200]⟩
abbrev S128 : Shape := ⟨1, ![128]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c10_i32 : BitVec 32 := 10#32
  let v4 : BitVec 32 := Scalar.addi c0_i32 c10_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c3200_i32 : BitVec 32 := 3200#32
  let v22 : BitVec 32 := Scalar.muli arg4 c3200_i32
  v22
def k0_off1 (k0_t1 : Fin k0_t1_loop.trips) : Fin 2 → Nat :=
  let c0_14 : Index := 0#32
  let c0_i32 : BitVec 32 := 0#32
  let c1_i32 : BitVec 32 := 1#32
  let arg4 : BitVec 32 := Scf.iv c0_i32 c1_i32 k0_t1
  let c3200_i32 : BitVec 32 := 3200#32
  let v22 : BitVec 32 := Scalar.muli arg4 c3200_i32
  let v23 : BitVec 32 := v22
  let v24 : Index := Scalar.indexCast v23
  ![0, v24.toNat]
@[reducible] def k0_t2_loop : Scf.Loop 32 :=
  let c0_i32_6 : BitVec 32 := 0#32
  let c10_i32_7 : BitVec 32 := 10#32
  let v13 : BitVec 32 := Scalar.addi c0_i32_6 c10_i32_7
  let c1_i32_8 : BitVec 32 := 1#32
  ⟨c0_i32_6, v13, c1_i32_8⟩
def k0_mult2 (k0_t2 : Fin k0_t2_loop.trips) : BitVec 32 :=
  let c0_i32_6 : BitVec 32 := 0#32
  let c1_i32_8 : BitVec 32 := 1#32
  let arg4 : BitVec 32 := Scf.iv c0_i32_6 c1_i32_8 k0_t2
  let c3200_i32 : BitVec 32 := 3200#32
  let v22 : BitVec 32 := Scalar.muli arg4 c3200_i32
  v22
def k0_off2 (k0_t2 : Fin k0_t2_loop.trips) : Fin 2 → Nat :=
  let c0_14 : Index := 0#32
  let c0_i32_6 : BitVec 32 := 0#32
  let c1_i32_8 : BitVec 32 := 1#32
  let arg4 : BitVec 32 := Scf.iv c0_i32_6 c1_i32_8 k0_t2
  let c3200_i32 : BitVec 32 := 3200#32
  let v22 : BitVec 32 := Scalar.muli arg4 c3200_i32
  let v23 : BitVec 32 := v22
  let v24 : Index := Scalar.indexCast v23
  ![0, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S128x3200 : 0 < S128x3200.numel
  reduces_S128x3200_S128 : S128x3200.Reduces [1] S128
  shapeCasts_S128_S128x1 : S128.ShapeCasts S128x1
  iota_S128x3200_d1_w32 : S128x3200.Iotas .tc 32 [1]
  broadcasts_S128x1_S128x3200 : S128x1.Broadcasts S128x3200
  reducesTo_S8192x1_S_d0_1 : S8192x1.ReducesTo [0, 1] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x3200.size a ≤ S128x32000.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S128x3200.size a ≤ S128x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S8192x32000.size a
  hwx0_0 : ∀ i : grid0.Coords, EltTy.bits .f32 = 32 ∨ (Rect.block (s := S8192x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x32000, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x1, .i32⟩
  | .hbm, ⟨29, _⟩ => ⟨S8192x2, .i32⟩
  | .hbm, ⟨30, _⟩ => ⟨S_, .f32⟩
  | .hbm, ⟨31, _⟩ => ⟨S8192, .f32⟩
  | .hbm, ⟨32, _⟩ => ⟨S8192x32000, .f32⟩
  | .hbm, ⟨33, _⟩ => ⟨S_, .f32⟩
  | .hbm, ⟨34, _⟩ => ⟨S8192x32000, .f32⟩
  | .hbm, ⟨35, _⟩ => ⟨S8192x32000, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x32000, .f32⟩
  | .hbm, ⟨43, _⟩ => ⟨S8192x32000, .f32⟩
  | .hbm, ⟨44, _⟩ => ⟨S8192x32000, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x32000, .f32⟩
  | .hbm, ⟨50, _⟩ => ⟨S8192x32000, .f32⟩
  | .hbm, ⟨51, _⟩ => ⟨S8192x1, .i32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S_, .i32⟩
  | .hbm, ⟨56, _⟩ => ⟨S8192x1, .i32⟩
  | .hbm, ⟨57, _⟩ => ⟨S8192x1, .i32⟩
  | .hbm, ⟨58, _⟩ => ⟨S8192x1, .i32⟩
  | .hbm, ⟨59, _⟩ => ⟨S8192x1x1, .i32⟩
  | .hbm, ⟨60, _⟩ => ⟨S1, .i32⟩
  | .hbm, ⟨61, _⟩ => ⟨S_, .i32⟩
  | .hbm, ⟨62, _⟩ => ⟨S8192x1x1, .i32⟩
  | .hbm, ⟨63, _⟩ => ⟨S8192x1x1, .i1⟩
  | .hbm, ⟨64, _⟩ => ⟨S1x1x1, .i32⟩
  | .hbm, ⟨65, _⟩ => ⟨S8192x1x1, .i32⟩
  | .hbm, ⟨66, _⟩ => ⟨S8192x1x1, .i1⟩
  | .hbm, ⟨67, _⟩ => ⟨S8192x1x1, .i1⟩
  | .hbm, ⟨68, _⟩ => ⟨S_, .i1⟩
  | .hbm, ⟨69, _⟩ => ⟨S8192x1, .i1⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_call0_cst_0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_cst_1 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_v26 : Ref sig .tc := ⟨.hbm, 50, rfl⟩
abbrev main_v27 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_6 : Ref sig .tc := ⟨.hbm, 76, rfl⟩
abbrev main_v31 : Ref sig .tc := ⟨.hbm, 77, rfl⟩
abbrev main_cst_7 : Ref sig .tc := ⟨.hbm, 78, rfl⟩
abbrev main_v32 : Ref sig .tc := ⟨.hbm, 79, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32000_0_1 : S8192x1.BroadcastsInDim S8192x32000 (![0, 1] : Fin 2 → Fin S8192x32000.rank)
  bcast_S_S8192 : S_.BroadcastsInDim S8192 (![] : Fin 0 → Fin S8192.rank)
  concatenates_S8192x1_S8192x1_S8192x2_d1 : Shape.Concatenates [S8192x1, S8192x1] S8192x2 1
  bcast_S_S8192x32000 : S_.BroadcastsInDim S8192x32000 (![] : Fin 0 → Fin S8192x32000.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  scatter_S8192x32000_S8192x2_S8192_n_01_01_1_wf : ScatterDims.WF S8192x32000 S8192x2 S8192 [] [0, 1] [0, 1] 1
  gather_S8192x32000_S8192x1x1_S8192x1_n_1_0_0_1_2_11_wf : GatherDims.WF S8192x32000 S8192x1x1 S8192x1 [] [1] [0] [1] [0] 2 ![1, 1]

variable [Facts₀]

def scatter_S8192x32000_S8192x2_S8192_n_01_01_1 : ScatterDims S8192x32000 S8192x2 S8192 where
  updateWindowDims := []
  insertedWindowDims := [0, 1]
  scatterDimsToOperandDims := [0, 1]
  indexVectorDim := 1
  wf := scatter_S8192x32000_S8192x2_S8192_n_01_01_1_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  The mathematics of the additive-angular-margin loss, row by row, over the extended reals.

  A row of logits is a function `x : ι → EReal` over the classes, its label a class `ℓ : ι`.
  With  n = max (√ Σⱼ xⱼ²) ε  the clamped Euclidean norm of the row, both programs compute the
  cross-entropy at the label of the logits  sⱼ = 30·(xⱼ / n − ½·[j = ℓ]):
    * the kernel with the row's scale a = 30 / n, the fixed shift 30 of the log-sum-exp and the
      margin 15 = 30·½ taken inside the exponent:
        (log Σⱼ exp (xⱼ·a − 30 − 15·[j = ℓ]) + 30) − (a·x_ℓ − 15);
    * the reference as the negated log-softmax at the label, shifted by some `M` (the row's maximum):
        −((s_ℓ − M) − log Σⱼ exp (sⱼ − M)).
  The two are the same number whenever the row is finite, for EVERY real shift `M`: the shift of
  a log-sum-exp cancels. The loss is the mean of the rows' values over the 8192 rows.
-/
import Idealize.ShloMosaic.PureOps.Ideal
import Idealize.ShloMosaic.Lib.ValueIdx

noncomputable section

open scoped BigOperators

namespace Cert.AamLoss

open Idealize.ShloMosaic Idealize.ShloMosaic.ValueIdx

/-- The clamp of the norm, the float nearest 1e-12. -/
abbrev wEps : EReal := Ideal.ofBits .f32 0x2B8CBCCC#32
/-- The scale 30. -/
abbrev w30 : EReal := Ideal.ofBits .f32 0x41F00000#32
/-- The scaled margin 15. -/
abbrev w15 : EReal := Ideal.ofBits .f32 0x41700000#32
/-- The negated margin −½. -/
abbrev wNegHalf : EReal := Ideal.ofBits .f32 0xBF000000#32
/-- The number of rows, 8192. -/
abbrev w8192 : EReal := Ideal.ofBits .f32 0x46000000#32

section Row

variable {ι : Type} [Fintype ι] [DecidableEq ι]

/-- The row's clamped Euclidean norm  max (√ Σⱼ xⱼ²) ε. -/
def rowNorm (x : ι → EReal) : EReal := max (Ideal.sqrt (∑ j, x j * x j)) wEps

/-- The kernel's scale of the row, 30 / norm. -/
def rowScale (x : ι → EReal) : EReal := Ideal.div w30 (rowNorm x)

/-- The kernel's value of a row: the log-sum-exp at the fixed shift 30 with the margin inside the exponent,
    less the label's scaled logit. -/
def kernelRow (x : ι → EReal) (ℓ : ι) : EReal :=
  (Ideal.log (∑ j, Ideal.exp ((x j * rowScale x - w30) - (if j = ℓ then w15 else 0))) + w30)
    - (rowScale x * (∑ j, if j = ℓ then x j else 0) - w15)

/-- The reference's scaled logits: the normalized row, less the margin at the label, times 30. -/
def refScaled (x : ι → EReal) (ℓ : ι) (j : ι) : EReal :=
  (Ideal.div (x j) (rowNorm x) + (if j = ℓ then wNegHalf else 0)) * w30

/-- The reference's value of a row: the negated log-softmax at the label, with the shift `M`. -/
def refRow (x : ι → EReal) (ℓ : ι) (M : EReal) : EReal :=
  -((refScaled x ℓ ℓ - M) - Ideal.log (∑ j, Ideal.exp (refScaled x ℓ j - M)))

end Row

/-- The mean over the rows: their sum divided by 8192. -/
def meanOf (f : Fin 8192 → EReal) : EReal := Ideal.div (∑ R, f R) w8192

/-- Row `R` of a [8192, 32000] array. -/
def rowOf (x : (⟨2, ![8192, 32000]⟩ : Shape).Idx → EReal) (R : Fin 8192) : Fin 32000 → EReal := fun j => x (ix2 R j)

/-- A label word as a class; for a word below 32000 this is the word's number. -/
def labIdx (b : BitVec 32) : Fin 32000 := ⟨b.toNat % 32000, Nat.mod_lt _ (by norm_num)⟩

theorem labIdx_val {b : BitVec 32} (h : b.toNat < 32000) : (labIdx b).val = b.toNat := Nat.mod_eq_of_lt h

end Cert.AamLoss

end
-- ==== Proof.Payloads.lean ====
/-
  The kernel body's pure terms read at an index, over the extended reals.

  Each row `p` of a [128, 1] column carries one number. The accumulators start at 0; a chunk of 3200 lanes
  adds to row `p` the sum over its lanes `q` of the squares, of the entry at the label's lane (lane
  `3200 k + q` of chunk `k` compared with the row's label word), or of the exponentials of the scaled and
  shifted entries with the margin taken off at the label's lane; the scale is 30 / max (√ss) ε and the
  row's value is (log se + 30) − (scale · lv − 15).

  The layout steps: a lane sum [128, 3200] → [128] is the sum over the row's lanes; the cast [128] → [128, 1]
  reads row `p` at (p, 0); the broadcast [128, 1] → [128, 3200] reads (p, 0) at every (p, q); the lane
  iota reads `q`; the chunk's first lane is the word of `3200 k`, and words of naturals add and multiply
  as the naturals do.
-/
import proofs.«430431_j75436805587459_3_alg».proof.Proof.Gen.KernelIdeal.Skeleton
import proofs.«430431_j75436805587459_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Cert.AamLoss Idealize.ShloMosaic Idealize.ShloMosaic.ValueIdx

/-! ## Layout operations at explicit coordinates -/

/-- The cast of a [128] vector to [128, 1] reads row `p` at `(p, 0)`. -/
theorem keepdims_apply {α : Type} (w : S128.Idx → α) (h : S128.ShapeCasts S128x1) (p : Fin 128) :
    shapeCast S128x1 w h (ix2 p (0 : Fin 1)) = w (ix1 p) :=
  shapeCast_apply w h _ _ (by
    rw [Shape.rowMajor_val_two, Shape.rowMajor_val_one]
    show p.val = p.val * 1 + 0
    omega)

/-- A [128, 1] column broadcast along the lanes reads row `p`'s entry at every `(p, q)`. -/
theorem lanes_apply {α : Type} (w : S128x1.Idx → α) (h : S128x1.Broadcasts S128x3200) (p : Fin 128) (q : Fin 3200) :
    broadcastTo S128x3200 w h (ix2 p q) = w (ix2 p (0 : Fin 1)) :=
  broadcastTo_apply w h _ _ (fun a => match a with
    | ⟨0, _⟩ => rfl
    | ⟨1, _⟩ => rfl)

/-- The lane iota reads the lane's number. -/
theorem iota_lane_apply (h : S128x3200.Iotas .tc 32 [1]) (p : Fin 128) (q : Fin 3200) :
    iota .tc S128x3200 32 [1] h (ix2 p q) = BitVec.ofNat 32 q.val :=
  iota_single_apply .tc S128x3200 32 1 h (ix2 p q)

/-- The lane sum of a [128, 3200] vector at row `p` is the sum over the row's lanes. -/
theorem lane_sum (v : FVec Ideal S128x3200 .f32) (h : S128x3200.Reduces [1] S128) (hφ : FKind.Formats .f32)
    (hacc : (0x00000000#32 : BitVec 32) = 0x00000000#32) (p : Fin 128) :
    multiReduction (F := Ideal) .add [1] S128 v 0x00000000#32 h hφ hacc (ix1 p) = ∑ q : Fin 3200, v (ix2 p q) := by
  refine (Ideal.multiReduction_add_single v 0x00000000#32 h hφ hacc (ix1 p)).trans ?_
  refine Finset.sum_congr rfl fun q _ => congrArg v ?_
  funext a
  match a with
  | ⟨0, _⟩ => rfl
  | ⟨1, _⟩ => rfl

/-- The keepdims lane sum at `(p, 0)`. -/
theorem keep_lane_sum (v : FVec Ideal S128x3200 .f32) (h : S128x3200.Reduces [1] S128) (hφ : FKind.Formats .f32)
    (hacc : (0x00000000#32 : BitVec 32) = 0x00000000#32) (hc : S128.ShapeCasts S128x1) (p : Fin 128) :
    shapeCast S128x1 (multiReduction (F := Ideal) .add [1] S128 v 0x00000000#32 h hφ hacc) hc (ix2 p (0 : Fin 1))
      = ∑ q : Fin 3200, v (ix2 p q) :=
  (keepdims_apply _ hc p).trans (lane_sum v h hφ hacc p)

/-- The first lane of chunk `k`: the word of `3200 * k`. -/
theorem chunk_base (k : Nat) : Scalar.muli (Scf.iv 0#32 1#32 k) 3200#32 = BitVec.ofNat 32 (3200 * k) := by
  unfold Scalar.muli IntOp.muli Scf.iv
  rw [BitVec.mul_one, BitVec.zero_add, Nat.mul_comm, BitVec.ofNat_mul]

/-- The global lane number `3200 * k + q` as a word. -/
theorem lane_word (k q : Nat) :
    IntOp.addi (Scalar.muli (Scf.iv 0#32 1#32 k) 3200#32) (BitVec.ofNat 32 q) = BitVec.ofNat 32 (3200 * k + q) := by
  rw [chunk_base]
  unfold IntOp.addi
  rw [BitVec.ofNat_add]

/-- A select on an equality test of two words is the `if` on their equality. -/
theorem select_cmpi_eq {α : Type} {w : Nat} (x y : BitVec w) (a b : α) :
    Scalar.select (IntOp.cmpi .eq x y) a b = if x = y then a else b := by
  by_cases h : x = y
  · have hb : (x == y) = true := beq_iff_eq.2 h
    have hc : IntOp.cmpi .eq x y = 1#1 := by
      show BitVec.ofBool (x == y) = 1#1
      rw [hb]; rfl
    rw [if_pos h]; exact if_pos hc
  · have hb : (x == y) = false := beq_eq_false_iff_ne.2 h
    have hc : ¬ IntOp.cmpi .eq x y = 1#1 := by
      show ¬ BitVec.ofBool (x == y) = 1#1
      rw [hb]; decide
    rw [if_neg h]; exact if_neg hc

/-! ## The payloads -/

/-- The first accumulator (the sum of squares) starts at 0. -/
theorem pay2_apply (i : S128x1.Idx) : (k0_pay2 (F := Ideal)) i = 0 := by
  unfold k0_pay2
  exact Ideal.ofBits_zero_f32

/-- The second accumulator (the entry at the label) starts at 0. -/
theorem pay3_apply (i : S128x1.Idx) : (k0_pay3 (F := Ideal)) i = 0 := by
  unfold k0_pay3
  exact Ideal.ofBits_zero_f32

/-- The third accumulator (the sum of exponentials) starts at 0. -/
theorem pay7_apply (i : S128x1.Idx) : (k0_pay7 (F := Ideal)) i = 0 := by
  unfold k0_pay7
  exact Ideal.ofBits_zero_f32

/-- The row's scale: 30 over the clamped root of the sum of squares. -/
theorem pay6_apply (ss : FVec Ideal S128x1 .f32) (p : Fin 128) :
    k0_pay6 ss (ix2 p 0) = Ideal.div w30 (max (Ideal.sqrt (ss (ix2 p 0))) wEps) := by
  unfold k0_pay6
  rfl

/-- The row's value: the log of the sum of exponentials put back at the shift 30, less the label's scaled entry
    with the margin 15 taken off. -/
theorem pay9_apply (ss lv se : FVec Ideal S128x1 .f32) (p : Fin 128) :
    k0_pay9 ss lv se (ix2 p 0) = (Ideal.log (se (ix2 p 0)) + w30) - (k0_pay6 ss (ix2 p 0) * lv (ix2 p 0) - w15) := by
  unfold k0_pay9
  rfl

/-- A chunk adds to row `p` the sum of the squares of its lanes. -/
theorem pay4_apply (acc : FVec Ideal S128x1 .f32) (v : Vec Ideal S128x3200 .f32) (p : Fin 128) :
    k0_pay4 acc v (ix2 p 0) = acc (ix2 p 0) + ∑ q : Fin 3200, v (ix2 p q) * v (ix2 p q) := by
  unfold k0_pay4
  refine (addf_apply _ _ _).trans ?_
  refine congrArg (acc (ix2 p 0) + ·) ?_
  exact keep_lane_sum (mulf v v) _ _ _ _ p

/-- The identity cast of the labels is the labels. -/
theorem pay1_eq (v0 : Vec Ideal S128x1 .i32) : k0_pay1 (F := Ideal) v0 = v0 := by
  unfold k0_pay1
  exact shapeCast_self v0 _

/-- The label mask at `(p, q)` of chunk `k`: a select on it is the `if` on "lane `3200 k + q` is row `p`'s label". -/
theorem label_select {α : Type} (lab : IVec S128x1 32) (k : Nat) (hi : S128x3200.Iotas .tc 32 [1])
    (hb : S128x1.Broadcasts S128x3200) (a b : S128x3200.Idx → α) (p : Fin 128) (q : Fin 3200) :
    select (cmpi .eq (addi (broadcast S128x3200 (Scalar.muli (Scf.iv 0#32 1#32 k) 3200#32)) (iota .tc S128x3200 32 [1] hi))
        (broadcastTo S128x3200 lab hb)) a b (ix2 p q)
      = if BitVec.ofNat 32 (3200 * k + q.val) = lab (ix2 p (0 : Fin 1)) then a (ix2 p q) else b (ix2 p q) := by
  show Scalar.select (IntOp.cmpi .eq (IntOp.addi (Scalar.muli (Scf.iv 0#32 1#32 k) 3200#32)
      (iota .tc S128x3200 32 [1] hi (ix2 p q))) (broadcastTo S128x3200 lab hb (ix2 p q))) (a (ix2 p q)) (b (ix2 p q)) = _
  rw [iota_lane_apply hi p q, lanes_apply lab hb p q, lane_word, select_cmpi_eq]

/-- A chunk adds to row `p` its entry at the label's lane, if the label falls in the chunk: the sum over the lanes
    of the entry where lane `3200 k + q` is the label and 0 elsewhere. -/
theorem pay5_apply (v0 : Vec Ideal S128x1 .i32) (k : Fin k0_t1_loop.trips) (acc : FVec Ideal S128x1 .f32) (v : Vec Ideal S128x3200 .f32) (p : Fin 128) :
    k0_pay5 v0 k acc v (ix2 p 0) = acc (ix2 p 0) + ∑ q : Fin 3200, (if BitVec.ofNat 32 (3200 * k.val + q.val) = v0 (ix2 p 0) then v (ix2 p q) else 0) := by
  unfold k0_pay5
  refine (addf_apply _ _ _).trans ?_
  refine congrArg (acc (ix2 p 0) + ·) ?_
  refine (keep_lane_sum _ _ _ _ _ p).trans ?_
  refine Finset.sum_congr rfl fun q _ => ?_
  refine (label_select (k0_pay1 (F := Ideal) v0) k.val _ _ _ _ p q).trans ?_
  rw [pay1_eq]
  show (if _ then v (ix2 p q) else Ideal.ofBits .f32 0x00000000#32) = _
  rw [Ideal.ofBits_zero_f32]

/-- A chunk adds to row `p` the sum over its lanes of the exponential of the scaled entry less 30, less the margin
    15 at the label's lane. -/
theorem pay8_apply (v0 : Vec Ideal S128x1 .i32) (ss : FVec Ideal S128x1 .f32) (k : Fin k0_t2_loop.trips) (acc : FVec Ideal S128x1 .f32) (v : Vec Ideal S128x3200 .f32) (p : Fin 128) :
    k0_pay8 v0 ss k acc v (ix2 p 0) = acc (ix2 p 0) + ∑ q : Fin 3200, Ideal.exp ((v (ix2 p q) * k0_pay6 ss (ix2 p 0) - w30) - (if BitVec.ofNat 32 (3200 * k.val + q.val) = v0 (ix2 p 0) then w15 else 0)) := by
  unfold k0_pay8
  refine (addf_apply _ _ _).trans ?_
  refine congrArg (acc (ix2 p 0) + ·) ?_
  refine (keep_lane_sum _ _ _ _ _ p).trans ?_
  refine Finset.sum_congr rfl fun q _ => ?_
  show Ideal.exp ((v (ix2 p q) * broadcastTo S128x3200 (k0_pay6 ss) _ (ix2 p q) - w30) - select _ _ _ (ix2 p q)) = Ideal.exp _
  refine congrArg Ideal.exp ?_
  refine congrArg₂ (· - ·) ?_ ?_
  · refine congrArg (· - w30) ?_
    exact congrArg (v (ix2 p q) * ·) (lanes_apply (k0_pay6 ss) _ p q)
  · refine (label_select (k0_pay1 (F := Ideal) v0) k.val _ _ _ _ p q).trans ?_
    rw [pay1_eq]
    show (if _ then w15 else Ideal.ofBits .f32 0x00000000#32) = _
    rw [Ideal.ofBits_zero_f32]

end Cert.KernelIdeal.PayVal

end
-- ==== Proof.RowAlgebra.lean ====
/-
  The row algebra of the additive-angular-margin loss.

  On a row of real logits every intermediate of both programs is a real number: the clamped norm
  n = max (√ Σⱼ uⱼ²) ε is positive, the scale is a = 30·(1/n), and the scaled logits are
  sⱼ = (uⱼ·(1/n) − ½·[j = ℓ])·30.  The kernel's exponent  uⱼ·a − 30 − 15·[j = ℓ]  is  sⱼ − 30, so
  its value is  log Σⱼ exp (sⱼ − 30) + 30 − s_ℓ; the reference's is  −((s_ℓ − μ) − log Σⱼ exp (sⱼ − μ)).
  A shift of a log-sum-exp cancels:  log Σⱼ exp (sⱼ − c) = log Σⱼ exp sⱼ − c, so both are
  log Σⱼ exp sⱼ − s_ℓ.  Last, a sum over 32000 columns splits into ten chunks of 3200 along the
  bijection  (k, q) ↦ q + 3200·k.
-/
import proofs.«430431_j75436805587459_3_alg».proof.Proof.Spec
import Mathlib.Analysis.SpecialFunctions.Log.Basic
import Mathlib.Analysis.SpecialFunctions.Exp
import Mathlib.Analysis.SpecialFunctions.Sqrt
import Mathlib.Data.EReal.Basic
import Mathlib.Data.EReal.Operations
import Mathlib.Algebra.BigOperators.Fin
import Mathlib.Logic.Equiv.Fin.Basic

noncomputable section

open scoped BigOperators

namespace Cert.AamLoss

open Idealize.ShloMosaic

/-! ### The constants as real numbers -/

theorem w30_eq : w30 = ((30 : ℝ) : EReal) := by
  simp [Ideal.ofBits, Ideal.ieee, -EReal.coe_mul]; norm_num

theorem w15_eq : w15 = ((15 : ℝ) : EReal) := by
  simp [Ideal.ofBits, Ideal.ieee, -EReal.coe_mul]; norm_num

theorem wNegHalf_eq : wNegHalf = ((-1 / 2 : ℝ) : EReal) := by
  simp [Ideal.ofBits, Ideal.ieee, -EReal.coe_mul]; norm_num

/-- The clamp is some positive real. -/
theorem wEps_pos : ∃ e : ℝ, 0 < e ∧ wEps = (e : EReal) := by
  simp [Ideal.ofBits, Ideal.ieee, -EReal.coe_mul]

/-! ### Coercions -/

/-- A conditional with a zero branch is the coercion of the real conditional. -/
theorem ite_coe (p : Prop) [Decidable p] (a : ℝ) :
    (if p then (a : EReal) else 0) = ((if p then a else 0 : ℝ) : EReal) := by
  split_ifs <;> simp

section Row

variable {ι : Type} [Fintype ι] [DecidableEq ι]

/-- The coercion of a finite real sum is the sum of the coercions. -/
theorem coe_sum (s : Finset ι) (f : ι → ℝ) :
    ((∑ j ∈ s, f j : ℝ) : EReal) = ∑ j ∈ s, (f j : EReal) := by
  induction s using Finset.induction_on with
  | empty => simp
  | insert a s ha ih => rw [Finset.sum_insert ha, Finset.sum_insert ha, EReal.coe_add, ih]

/-! ### The real identity: the shift of a log-sum-exp cancels -/

theorem log_sum_exp_shift (s : ι → ℝ) (ℓ : ι) (c : ℝ) :
    Real.log (∑ j, Real.exp (s j - c)) = Real.log (∑ j, Real.exp (s j)) - c := by
  have hpos : 0 < ∑ j, Real.exp (s j) :=
    Finset.sum_pos (fun j _ => Real.exp_pos _) ⟨ℓ, Finset.mem_univ ℓ⟩
  simp only [Real.exp_sub]
  rw [← Finset.sum_div, Real.log_div hpos.ne' (Real.exp_pos c).ne', Real.log_exp]

/-- Over the reals the kernel's row value is the reference's, for every norm and every shift. -/
theorem real_row_identity (u : ι → ℝ) (ℓ : ι) (n μ : ℝ) :
    Real.log (∑ j, Real.exp (u j * (30 * (1 / n)) - 30 - (if j = ℓ then (15 : ℝ) else 0))) + 30
        - (30 * (1 / n) * u ℓ - 15)
      = -((((u ℓ * (1 / n) + (if ℓ = ℓ then (-1 / 2 : ℝ) else 0)) * 30) - μ)
          - Real.log (∑ j, Real.exp ((u j * (1 / n) + (if j = ℓ then (-1 / 2 : ℝ) else 0)) * 30 - μ))) := by
  have h1 : ∀ j, u j * (30 * (1 / n)) - 30 - (if j = ℓ then (15 : ℝ) else 0)
      = (u j * (1 / n) + (if j = ℓ then (-1 / 2 : ℝ) else 0)) * 30 - 30 := by
    intro j; split_ifs <;> ring
  simp only [h1]
  rw [log_sum_exp_shift _ ℓ 30, log_sum_exp_shift _ ℓ μ, if_pos trivial]
  ring

/-! ### The two programs' values on a real row -/

/-- The clamped norm of a real row is a positive real. -/
theorem rowNorm_coe (u : ι → ℝ) :
    ∃ n : ℝ, 0 < n ∧ rowNorm (fun j => (u j : EReal)) = (n : EReal) := by
  obtain ⟨e, he, hE⟩ := wEps_pos
  refine ⟨max (Real.sqrt (∑ j, u j * u j)) e, lt_max_of_lt_right he, ?_⟩
  have hS : (∑ j, (u j : EReal) * (u j : EReal)) = ((∑ j, u j * u j : ℝ) : EReal) := by
    rw [coe_sum]; simp only [EReal.coe_mul]
  have h0 : ¬ (∑ j, u j * u j : ℝ) < 0 :=
    not_lt.mpr (Finset.sum_nonneg fun j _ => mul_self_nonneg (u j))
  rw [rowNorm, hS, Ideal.sqrt_coe, if_neg h0, hE]
  exact (EReal.coe_strictMono.monotone.map_max).symm

variable (u : ι → ℝ) (ℓ : ι) {n : ℝ}

theorem rowScale_coe (hn : 0 < n) (hN : rowNorm (fun j => (u j : EReal)) = (n : EReal)) :
    rowScale (fun j => (u j : EReal)) = ((30 * (1 / n) : ℝ) : EReal) := by
  rw [rowScale, hN, Ideal.div_coe hn.ne', w30_eq, ← EReal.coe_mul]

theorem refScaled_coe (hn : 0 < n) (hN : rowNorm (fun j => (u j : EReal)) = (n : EReal)) (j : ι) :
    refScaled (fun j => (u j : EReal)) ℓ j
      = (((u j * (1 / n) + (if j = ℓ then (-1 / 2 : ℝ) else 0)) * 30 : ℝ) : EReal) := by
  rw [refScaled, hN, Ideal.div_coe hn.ne', wNegHalf_eq, w30_eq, ite_coe, ← EReal.coe_mul,
    ← EReal.coe_add, ← EReal.coe_mul]

theorem kernelRow_coe (hn : 0 < n) (hN : rowNorm (fun j => (u j : EReal)) = (n : EReal)) :
    kernelRow (fun j => (u j : EReal)) ℓ
      = ((Real.log (∑ j, Real.exp (u j * (30 * (1 / n)) - 30 - (if j = ℓ then (15 : ℝ) else 0))) + 30
          - (30 * (1 / n) * u ℓ - 15) : ℝ) : EReal) := by
  have hterm : ∀ j, Ideal.exp (((u j : EReal) * ((30 * (1 / n) : ℝ) : EReal) - ((30 : ℝ) : EReal))
        - (if j = ℓ then ((15 : ℝ) : EReal) else 0))
      = ((Real.exp (u j * (30 * (1 / n)) - 30 - (if j = ℓ then (15 : ℝ) else 0)) : ℝ) : EReal) := by
    intro j
    rw [ite_coe, ← EReal.coe_mul, ← EReal.coe_sub, ← EReal.coe_sub, Ideal.exp_coe]
  have hpos : ¬ (∑ j, Real.exp (u j * (30 * (1 / n)) - 30 - (if j = ℓ then (15 : ℝ) else 0))) ≤ 0 :=
    not_le.mpr (Finset.sum_pos (fun j _ => Real.exp_pos _) ⟨ℓ, Finset.mem_univ ℓ⟩)
  have hlab : (∑ j, if j = ℓ then (u j : EReal) else 0) = (u ℓ : EReal) := by
    rw [Finset.sum_ite_eq', if_pos (Finset.mem_univ ℓ)]
  rw [kernelRow, rowScale_coe u hn hN, hlab, w30_eq, w15_eq]
  simp only [hterm]
  rw [← coe_sum, Ideal.log_coe, if_neg hpos, ← EReal.coe_add, ← EReal.coe_mul, ← EReal.coe_sub,
    ← EReal.coe_sub]

theorem refRow_coe (hn : 0 < n) (hN : rowNorm (fun j => (u j : EReal)) = (n : EReal)) (μ : ℝ) :
    refRow (fun j => (u j : EReal)) ℓ (μ : EReal)
      = ((-((((u ℓ * (1 / n) + (if ℓ = ℓ then (-1 / 2 : ℝ) else 0)) * 30) - μ)
          - Real.log (∑ j, Real.exp ((u j * (1 / n) + (if j = ℓ then (-1 / 2 : ℝ) else 0)) * 30 - μ))) : ℝ)
          : EReal) := by
  have hterm : ∀ j, Ideal.exp (refScaled (fun j => (u j : EReal)) ℓ j - (μ : EReal))
      = ((Real.exp ((u j * (1 / n) + (if j = ℓ then (-1 / 2 : ℝ) else 0)) * 30 - μ) : ℝ) : EReal) := by
    intro j
    rw [refScaled_coe u ℓ hn hN j, ← EReal.coe_sub, Ideal.exp_coe]
  have hpos : ¬ (∑ j, Real.exp ((u j * (1 / n) + (if j = ℓ then (-1 / 2 : ℝ) else 0)) * 30 - μ)) ≤ 0 :=
    not_le.mpr (Finset.sum_pos (fun j _ => Real.exp_pos _) ⟨ℓ, Finset.mem_univ ℓ⟩)
  rw [refRow, refScaled_coe u ℓ hn hN ℓ]
  simp only [hterm]
  rw [← coe_sum, Ideal.log_coe, if_neg hpos, ← EReal.coe_sub, ← EReal.coe_sub, ← EReal.coe_neg]

end Row

section Statements

variable {ι : Type} [Fintype ι] [DecidableEq ι]

/-- On a finite row every scaled logit of the reference is a real number. -/
theorem refScaled_real (x : ι → EReal) (ℓ : ι) (hx : ∀ j, ∃ u : ℝ, x j = (u : EReal)) (j : ι) :
    ∃ r : ℝ, refScaled x ℓ j = (r : EReal) := by
  choose u hu using hx
  obtain rfl : x = fun j => (u j : EReal) := funext hu
  obtain ⟨n, hn, hN⟩ := rowNorm_coe u
  exact ⟨_, refScaled_coe u ℓ hn hN j⟩

/-- On a finite row the kernel's value is the reference's, for every real shift of the log-sum-exp. -/
theorem kernelRow_eq_refRow (x : ι → EReal) (ℓ : ι) (hx : ∀ j, ∃ u : ℝ, x j = (u : EReal)) (μ : ℝ) :
    kernelRow x ℓ = refRow x ℓ (μ : EReal) := by
  choose u hu using hx
  obtain rfl : x = fun j => (u j : EReal) := funext hu
  obtain ⟨n, hn, hN⟩ := rowNorm_coe u
  rw [kernelRow_coe u ℓ hn hN, refRow_coe u ℓ hn hN μ, real_row_identity u ℓ n μ]

end Statements

/-! ### The chunks of a row -/

/-- A sum over 32000 columns is the sum of its ten chunks of 3200. -/
theorem sum_chunks (F : ℕ → EReal) :
    ∑ k ∈ Finset.range 10, ∑ q : Fin 3200, F (3200 * k + q.val) = ∑ j : Fin 32000, F j.val := by
  rw [Finset.sum_range (fun k => ∑ q : Fin 3200, F (3200 * k + q.val)),
    ← Fintype.sum_prod_type' (fun (k : Fin 10) (q : Fin 3200) => F (3200 * k.val + q.val))]
  refine Fintype.sum_equiv (finProdFinEquiv : Fin 10 × Fin 3200 ≃ Fin 32000) _ _ (fun p => ?_)
  rw [finProdFinEquiv_apply_val, add_comm]

end Cert.AamLoss

end
-- ==== Proof.KernelBlock.lean ====
/-
  The kernel body on ONE block of 128 rows, read as values at the extended reals.

  The body scans the block's 32000 columns in ten chunks of 3200. Its first loop carries, per row, the sum of
  squares and the sum of the entries whose column is the row's label; its second loop carries the sum of the
  exponentials  exp (x·a − 30 − 15·[column = label]); the one store writes, per row,
  (log Σexp + 30) − (a·x_label − 15). Here: what one trip of each loop adds (the chunk's lane sums), the carried
  values before trip n as sums over the first n chunks (induction on n), the ten chunks joined into sums over all
  32000 columns, and the stored block as the row-wise value `kernelRowW` of the block's rows — the row function of
  the specification with the label still a 32-bit word, which is `kernelRow` at the label's class when the word is
  a class index.
-/
import proofs.«430431_j75436805587459_3_alg».proof.Proof.Gen.KernelIdeal.Frame
import proofs.«430431_j75436805587459_3_alg».proof.Proof.Payloads
import proofs.«430431_j75436805587459_3_alg».proof.Proof.RowAlgebra
import proofs.«430431_j75436805587459_3_alg».proof.Proof.Spec
import Idealize.ShloMosaic.Lib.ValueIdx
import Idealize.ShloMosaic.Lib.Pipeline.Value

noncomputable section

open scoped BigOperators

namespace Cert.KernelIdeal.BlockVal

open Idealize.ShloMosaic Idealize.ShloMosaic.TcCoe Idealize.ShloMosaic.ValueIdx
open Idealize.SL.Sem
open Cert.KernelIdeal Cert.KernelIdeal.Gen Cert.KernelIdeal.PayVal Cert.AamLoss

/-! ## The row function with the label as a word -/

/-- The kernel's value of a row, the label a 32-bit word: column `j` is the label's when `j`'s word is the label. -/
def kernelRowW (x : Fin 32000 → EReal) (b : BitVec 32) : EReal :=
  (Ideal.log (∑ j : Fin 32000, Ideal.exp ((x j * rowScale x - w30) - (if BitVec.ofNat 32 j.val = b then w15 else 0))) + w30)
    - (rowScale x * (∑ j : Fin 32000, if BitVec.ofNat 32 j.val = b then x j else 0) - w15)

/-- A column's word is the label exactly when the column is the label's class. -/
theorem word_eq_iff (b : BitVec 32) (hb : b.toNat < 32000) (j : Fin 32000) :
    BitVec.ofNat 32 j.val = b ↔ j = labIdx b := by
  have hj : j.val < 32000 := j.isLt
  constructor
  · intro h
    apply Fin.ext
    rw [labIdx_val hb, ← h, BitVec.toNat_ofNat]
    exact (Nat.mod_eq_of_lt (by omega)).symm
  · intro h
    rw [h, labIdx_val hb]
    apply BitVec.eq_of_toNat_eq
    rw [BitVec.toNat_ofNat]
    exact Nat.mod_eq_of_lt b.isLt

/-- With a class index for label the word form is the specification's row function. -/
theorem kernelRowW_eq (x : Fin 32000 → EReal) (b : BitVec 32) (hb : b.toNat < 32000) :
    kernelRowW x b = kernelRow x (labIdx b) := by
  unfold kernelRowW kernelRow
  simp only [word_eq_iff b hb]

/-! ## The loops' shape -/

theorem trips1 : k0_t1_loop.trips = 10 := by decide
theorem trips2 : k0_t2_loop.trips = 10 := by decide

theorem off1_eq : ∀ k : Fin k0_t1_loop.trips, k0_off1 k = ![0, 3200 * k.val] := by decide +kernel
theorem off2_eq : ∀ k : Fin k0_t2_loop.trips, k0_off2 k = ![0, 3200 * k.val] := by decide +kernel

/-- Column `j` of row `p` of a block, zero past the last column. -/
def colN (x0 : Vec Ideal S128x32000 .f32) (p : Fin 128) (j : ℕ) : EReal :=
  if h : j < 32000 then x0 (ix2 p ⟨j, h⟩) else 0

theorem colN_val (x0 : Vec Ideal S128x32000 .f32) (p : Fin 128) (j : Fin 32000) : colN x0 p j.val = x0 (ix2 p j) := by
  unfold colN; rw [dif_pos j.isLt]

variable (c : Dev nD) (i : grid0.Coords)
  (arg1 : Memref sig .tc .vmem S128x32000 .f32) (harg1 : arg1.IsWhole)
  (arg2 : Memref sig .tc .vmem S128x1 .i32) (harg2 : arg2.IsWhole)
  (arg3 : Memref sig .tc .vmem S128x1 .f32) (harg3 : arg3.IsWhole)
  (x0 : Vec Ideal S128x32000 .f32) (x1 : Vec Ideal S128x1 .i32)

/-- Chunk `k` of the block as the first loop loads it. -/
abbrev chunk1 (k : Fin k0_t1_loop.trips) : Vec Ideal S128x3200 .f32 :=
  View.readAt (Elt Ideal) arg1.view (Rect.unit (s := S128x32000) (k0_off1 k) S128x3200.size (k0_off1_inb k)).toLoadRect (harg1.unread x0)
/-- Chunk `k` of the block as the second loop loads it. -/
abbrev chunk2 (k : Fin k0_t2_loop.trips) : Vec Ideal S128x3200 .f32 :=
  View.readAt (Elt Ideal) arg1.view (Rect.unit (s := S128x32000) (k0_off2 k) S128x3200.size (k0_off2_inb k)).toLoadRect (harg1.unread x0)

/-- Chunk `k` at (p, q) is the block at column 3200·k + q. -/
theorem chunk1_apply (k : Fin k0_t1_loop.trips) (p : Fin 128) (q : Fin 3200) :
    chunk1 arg1 harg1 x0 k (ix2 p q) = colN x0 p (3200 * k.val + q.val) := by
  have hk : k.val < 10 := trips1 ▸ k.isLt
  have hq : q.val < 3200 := q.isLt
  unfold chunk1
  rw [View.readAt_eq_ld, harg1.read_unread]
  unfold colN
  rw [dif_pos (by omega)]
  show x0 _ = _
  refine congrArg x0 (funext fun a => Fin.ext ?_)
  match a with
  | ⟨0, _⟩ =>
    show (k0_off1 k) 0 + 1 * (p : ℕ) = (p : ℕ)
    rw [off1_eq k]; show 0 + 1 * (p : ℕ) = p; omega
  | ⟨1, _⟩ =>
    show (k0_off1 k) 1 + 1 * (q : ℕ) = 3200 * k.val + q.val
    rw [off1_eq k]; show 3200 * k.val + 1 * q.val = _; omega

theorem chunk2_apply (k : Fin k0_t2_loop.trips) (p : Fin 128) (q : Fin 3200) :
    chunk2 arg1 harg1 x0 k (ix2 p q) = colN x0 p (3200 * k.val + q.val) := by
  have hk : k.val < 10 := trips2 ▸ k.isLt
  have hq : q.val < 3200 := q.isLt
  unfold chunk2
  rw [View.readAt_eq_ld, harg1.read_unread]
  unfold colN
  rw [dif_pos (by omega)]
  show x0 _ = _
  refine congrArg x0 (funext fun a => Fin.ext ?_)
  match a with
  | ⟨0, _⟩ =>
    show (k0_off2 k) 0 + 1 * (p : ℕ) = (p : ℕ)
    rw [off2_eq k]; show 0 + 1 * (p : ℕ) = p; omega
  | ⟨1, _⟩ =>
    show (k0_off2 k) 1 + 1 * (q : ℕ) = 3200 * k.val + q.val
    rw [off2_eq k]; show 3200 * k.val + 1 * q.val = _; omega

/-- The labels as the body loads them are the label block. -/
theorem labels_load :
    View.readAt (Elt Ideal) arg2.view (Rect.unit (s := S128x1) ![0, 0] S128x1.size inb_S128x1_S128x1_0_0).toLoadRect (harg2.unread x1) = x1 := by
  rw [View.readAt_eq_ld, harg2.read_unread]
  exact View.ld_unit_zero (funext fun a => by match a with | ⟨0, _⟩ => rfl | ⟨1, _⟩ => rfl) _ _

/-! ## One trip of each loop -/

/-- One trip of the first loop: both carried vectors through the chunk's payloads. -/
theorem trip1_eq (v0 : Vec Ideal S128x1 .i32) (k : Fin k0_t1_loop.trips) (acc : FVec Ideal S128x1 .f32 × FVec Ideal S128x1 .f32) :
    tripR_k0_t1 (F := Ideal) Variants.none c none i arg1 harg1 arg2 harg2 arg3 harg3 v0 (harg1.unread x0) k acc
      = (k0_pay4 acc.1 (chunk1 arg1 harg1 x0 k), k0_pay5 v0 k acc.2 (chunk1 arg1 harg1 x0 k)) := by
  unfold tripR_k0_t1 trip_k0_t1; rfl

/-- One trip of the second loop. -/
theorem trip2_eq (v0 : Vec Ideal S128x1 .i32) (ss : FVec Ideal S128x1 .f32) (k : Fin k0_t2_loop.trips) (acc : FVec Ideal S128x1 .f32) :
    tripR_k0_t2 (F := Ideal) Variants.none c none i arg1 harg1 arg2 harg2 arg3 harg3 v0 ss (harg1.unread x0) k acc
      = k0_pay8 v0 ss k acc (chunk2 arg1 harg1 x0 k) := by
  unfold tripR_k0_t2 trip_k0_t2; rfl

/-! ## The carried values before trip n -/

/-- The first loop's carried pair before trip `n`. -/
abbrev carry1 (v0 : Vec Ideal S128x1 .i32) (n : ℕ) : FVec Ideal S128x1 .f32 × FVec Ideal S128x1 .f32 :=
  st_k0_t1 (F := Ideal) Variants.none c none i arg1 harg1 arg2 harg2 arg3 harg3 v0 (harg1.unread x0) (k0_pay2 (F := Ideal), k0_pay3 (F := Ideal)) n
/-- The second loop's carried vector before trip `n`. -/
abbrev carry2 (v0 : Vec Ideal S128x1 .i32) (ss : FVec Ideal S128x1 .f32) (n : ℕ) : FVec Ideal S128x1 .f32 :=
  st_k0_t2 (F := Ideal) Variants.none c none i arg1 harg1 arg2 harg2 arg3 harg3 v0 ss (harg1.unread x0) (k0_pay7 (F := Ideal)) n

/-- Before trip `n` the first loop carries, per row, the squares and the label's entries summed over the first `n` chunks. -/
theorem carry1_apply (v0 : Vec Ideal S128x1 .i32) (n : ℕ) (hn : n ≤ 10) (p : Fin 128) :
    (carry1 c i arg1 harg1 arg2 harg2 arg3 harg3 x0 v0 n).1 (ix2 p 0)
        = ∑ k ∈ Finset.range n, ∑ q : Fin 3200, colN x0 p (3200 * k + q.val) * colN x0 p (3200 * k + q.val)
    ∧ (carry1 c i arg1 harg1 arg2 harg2 arg3 harg3 x0 v0 n).2 (ix2 p 0)
        = ∑ k ∈ Finset.range n, ∑ q : Fin 3200,
            (if BitVec.ofNat 32 (3200 * k + q.val) = v0 (ix2 p 0) then colN x0 p (3200 * k + q.val) else 0) := by
  induction n with
  | zero =>
    constructor
    · show (k0_pay2 (F := Ideal)) (ix2 p 0) = _
      rw [pay2_apply, Finset.range_zero, Finset.sum_empty]
    · show (k0_pay3 (F := Ideal)) (ix2 p 0) = _
      rw [pay3_apply, Finset.range_zero, Finset.sum_empty]
  | succ n ih =>
    have hlt : n < k0_t1_loop.trips := by rw [trips1]; omega
    obtain ⟨ih1, ih2⟩ := ih (by omega)
    have e : carry1 c i arg1 harg1 arg2 harg2 arg3 harg3 x0 v0 (n + 1)
        = tripR_k0_t1 (F := Ideal) Variants.none c none i arg1 harg1 arg2 harg2 arg3 harg3 v0 (harg1.unread x0) ⟨n, hlt⟩
            (carry1 c i arg1 harg1 arg2 harg2 arg3 harg3 x0 v0 n) :=
      st_k0_t1_succ (F := Ideal) Variants.none c none i arg1 harg1 arg2 harg2 arg3 harg3 v0 (harg1.unread x0) _ ⟨n, hlt⟩
    rw [e, trip1_eq]
    constructor
    · show k0_pay4 _ _ (ix2 p 0) = _
      rw [pay4_apply, ih1, Finset.sum_range_succ]
      refine congrArg (_ + ·) (Finset.sum_congr rfl fun q _ => ?_)
      rw [chunk1_apply]
    · show k0_pay5 _ _ _ _ (ix2 p 0) = _
      rw [pay5_apply, ih2, Finset.sum_range_succ]
      refine congrArg (_ + ·) (Finset.sum_congr rfl fun q _ => ?_)
      rw [chunk1_apply]

/-- Before trip `n` the second loop carries, per row, the exponentials summed over the first `n` chunks. -/
theorem carry2_apply (v0 : Vec Ideal S128x1 .i32) (ss : FVec Ideal S128x1 .f32) (n : ℕ) (hn : n ≤ 10) (p : Fin 128) :
    carry2 c i arg1 harg1 arg2 harg2 arg3 harg3 x0 v0 ss n (ix2 p 0)
      = ∑ k ∈ Finset.range n, ∑ q : Fin 3200,
          Ideal.exp ((colN x0 p (3200 * k + q.val) * k0_pay6 ss (ix2 p 0) - w30)
            - (if BitVec.ofNat 32 (3200 * k + q.val) = v0 (ix2 p 0) then w15 else 0)) := by
  induction n with
  | zero =>
    show (k0_pay7 (F := Ideal)) (ix2 p 0) = _
    rw [pay7_apply, Finset.range_zero, Finset.sum_empty]
  | succ n ih =>
    have hlt : n < k0_t2_loop.trips := by rw [trips2]; omega
    have e : carry2 c i arg1 harg1 arg2 harg2 arg3 harg3 x0 v0 ss (n + 1)
        = tripR_k0_t2 (F := Ideal) Variants.none c none i arg1 harg1 arg2 harg2 arg3 harg3 v0 ss (harg1.unread x0) ⟨n, hlt⟩
            (carry2 c i arg1 harg1 arg2 harg2 arg3 harg3 x0 v0 ss n) :=
      st_k0_t2_succ (F := Ideal) Variants.none c none i arg1 harg1 arg2 harg2 arg3 harg3 v0 ss (harg1.unread x0) _ ⟨n, hlt⟩
    rw [e, trip2_eq, pay8_apply, ih (by omega), Finset.sum_range_succ]
    refine congrArg (_ + ·) (Finset.sum_congr rfl fun q _ => ?_)
    rw [chunk2_apply]

end Cert.KernelIdeal.BlockVal

end
-- ==== Proof.KernelOut.lean ====
/-
  The block the kernel body stores, row by row.

  The body's one store writes, for each of the block's 128 rows, the payload of the two loops' results. With the
  carried values after the tenth trip read as sums over all 32000 columns, row `p` of the stored block is the
  row function `kernelRowW` of row `p` of the logits block and of the row's label word.
-/
import proofs.«430431_j75436805587459_3_alg».proof.Proof.KernelBlock

set_option maxRecDepth 65536

noncomputable section

open scoped BigOperators

namespace Cert.KernelIdeal.BlockVal

open Idealize.ShloMosaic Idealize.ShloMosaic.TcCoe Idealize.ShloMosaic.ValueIdx Idealize.ShloMosaic.Tactic
open Idealize.SL.Sem
open Cert.KernelIdeal Cert.KernelIdeal.Gen Cert.KernelIdeal.PayVal Cert.AamLoss

variable (c : Dev nD) (i : grid0.Coords)
  (arg1 : Memref sig .tc .vmem S128x32000 .f32) (harg1 : arg1.IsWhole)
  (arg2 : Memref sig .tc .vmem S128x1 .i32) (harg2 : arg2.IsWhole)
  (arg3 : Memref sig .tc .vmem S128x1 .f32) (harg3 : arg3.IsWhole)
  (x0 : Vec Ideal S128x32000 .f32) (x1 : Vec Ideal S128x1 .i32)

/-- The ten chunks of a row's squares are the row's squares. -/
theorem squares_all (p : Fin 128) :
    ∑ k ∈ Finset.range 10, ∑ q : Fin 3200, colN x0 p (3200 * k + q.val) * colN x0 p (3200 * k + q.val)
      = ∑ j : Fin 32000, x0 (ix2 p j) * x0 (ix2 p j) := by
  refine (sum_chunks (fun j => colN x0 p j * colN x0 p j)).trans (Finset.sum_congr rfl fun j _ => ?_)
  show colN x0 p j.val * colN x0 p j.val = _
  rw [colN_val]

/-- The ten chunks of a row's label entries are the row's label entries. -/
theorem labelled_all (b : BitVec 32) (p : Fin 128) :
    ∑ k ∈ Finset.range 10, ∑ q : Fin 3200, (if BitVec.ofNat 32 (3200 * k + q.val) = b then colN x0 p (3200 * k + q.val) else 0)
      = ∑ j : Fin 32000, (if BitVec.ofNat 32 j.val = b then x0 (ix2 p j) else 0) := by
  refine (sum_chunks (fun j => if BitVec.ofNat 32 j = b then colN x0 p j else 0)).trans (Finset.sum_congr rfl fun j _ => ?_)
  show (if BitVec.ofNat 32 j.val = b then colN x0 p j.val else 0) = _
  rw [colN_val]

/-- The ten chunks of a row's exponentials are the row's exponentials. -/
theorem exps_all (a : EReal) (b : BitVec 32) (p : Fin 128) :
    ∑ k ∈ Finset.range 10, ∑ q : Fin 3200,
        Ideal.exp ((colN x0 p (3200 * k + q.val) * a - w30) - (if BitVec.ofNat 32 (3200 * k + q.val) = b then w15 else 0))
      = ∑ j : Fin 32000, Ideal.exp ((x0 (ix2 p j) * a - w30) - (if BitVec.ofNat 32 j.val = b then w15 else 0)) := by
  refine (sum_chunks (fun j => Ideal.exp ((colN x0 p j * a - w30) - (if BitVec.ofNat 32 j = b then w15 else 0)))).trans
    (Finset.sum_congr rfl fun j _ => ?_)
  show Ideal.exp ((colN x0 p j.val * a - w30) - (if BitVec.ofNat 32 j.val = b then w15 else 0)) = _
  rw [colN_val]

theorem zeros2 : (![0, 0] : Fin S128x1.rank → ℕ) = fun _ => 0 :=
  funext fun a => by match a with | ⟨0, _⟩ => rfl | ⟨1, _⟩ => rfl

theorem tripsN1 : Scf.trips (0#32) (Scalar.addi 0#32 10#32) 1#32 = 10 := by decide

/-- Row `p` of the block the body stores is the row function of row `p` of the logits block and of its label. -/
theorem out_block (p : Fin 128) :
    out0_A_2 (F := Ideal) c i arg1 harg1 arg2 harg2 arg3 harg3 x0 x1 (ix2 p 0)
      = kernelRowW (fun j => x0 (ix2 p j)) (x1 (ix2 p 0)) := by
  unfold out0_A_2
  rw [View.read_writes_eq_canon _ _ _ (cover0_A_2 c i arg1 harg1 arg2 harg2 arg3 harg3 x0 x1)]
  unfold kernelRun0_A
  dsimp only
  rw [View.canon_unit_zero zeros2, labels_load, tripsN1]
  show k0_pay9 (carry1 c i arg1 harg1 arg2 harg2 arg3 harg3 x0 x1 10).1 (carry1 c i arg1 harg1 arg2 harg2 arg3 harg3 x0 x1 10).2
      (carry2 c i arg1 harg1 arg2 harg2 arg3 harg3 x0 x1 (carry1 c i arg1 harg1 arg2 harg2 arg3 harg3 x0 x1 10).1 10) (ix2 p 0) = _
  obtain ⟨h1, h2⟩ := carry1_apply c i arg1 harg1 arg2 harg2 arg3 harg3 x0 x1 10 le_rfl p
  rw [pay9_apply, carry2_apply c i arg1 harg1 arg2 harg2 arg3 harg3 x0 x1 _ 10 le_rfl p, pay6_apply, h1, h2,
    squares_all, labelled_all, exps_all]
  rfl

end Cert.KernelIdeal.BlockVal

end
-- ==== Proof.KernelArray.lean ====
/-
  From the blocks to the array, and through the lines after the region to the result.

  Grid point `t` of the 64 stages rows 128·t … 128·t + 127 of the logits and of the labels column (the labels
  reshaped to one column before the region) and writes back rows 128·t … 128·t + 127 of the [8192, 1] result.
  By the block value (row `p` of the stored block is the row function of row `p` of the staged blocks) the result
  array ends holding, at row `R`, the row function of row `R` of the logits and of label `R`: every row is in the
  block of the point `R / 128`. The lines after the region sum that column from zero and divide by 8192: the mean.
-/
import proofs.«430431_j75436805587459_3_alg».proof.Proof.KernelOut
import Idealize.ShloMosaic.Lib.StableHlo.Run

set_option maxRecDepth 65536

noncomputable section

open scoped BigOperators

namespace Cert.KernelIdeal.ArrVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.BlockVal Cert.AamLoss

variable (m : (ℓ : Loc nD τ sig) → Buf (Elt Ideal) ℓ) (ρ : Dev nD → PrngReg)

/-- The column the result array ends holding: row `R` is the row function of the logits' row `R` and of label `R`. -/
def lossCol (X : S8192x32000.Idx → EReal) (L : S8192x1.Idx → BitVec 32) : S8192x1.Idx → EReal :=
  fun i => kernelRowW (fun j => X (ix2 (i 0) j)) (L (ix2 (i 0) 0))

/-- The printed index maps, decided over the grid: at point `t` every window is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The logits block at point `t`, row `p`, column `j`, is the logits at row 128·t + p. -/
theorem iblk0_apply (c : Dev nD) (t : Fin cfg0.N) (p : Fin 128) (j : Fin 32000) (h : 128 * t.val + p.val < 8192) :
    (iblk m c 0 t : Vec Ideal S128x32000 .f32) (ix2 p j) = V m c main_arg0 (ix2 ⟨128 * t.val + p.val, h⟩ j) := by
  obtain ⟨e0, e1, -, -, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 128 + 1 * p.val = 128 * t.val + p.val; rw [e0]; omega
  | ⟨1, _⟩ => show win0_0.index t (1 : Fin 2) * 32000 + 1 * j.val = j.val; rw [e1]; omega

/-- The labels block at point `t`, row `p`, is the labels column at row 128·t + p. -/
theorem iblk1_apply (c : Dev nD) (t : Fin cfg0.N) (p : Fin 128) (h : 128 * t.val + p.val < 8192) :
    (iblk m c 1 t : Vec Ideal S128x1 .i32) (ix2 p 0) = V m c main_v0 (ix2 ⟨128 * t.val + p.val, h⟩ 0) := by
  obtain ⟨-, -, e0, e1, -, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 2) * 128 + 1 * p.val = 128 * t.val + p.val; rw [e0]; omega
  | ⟨1, _⟩ => show win0_1.index t (1 : Fin 2) * 1 + 1 * 0 = 0; rw [e1]

/-- What point `t` leaves in the result's staging buffer, row by row. -/
theorem outsAt_apply (c : Dev nD) (t : Fin cfg0.N) (p : Fin 128) (h : 128 * t.val + p.val < 8192) :
    outsAt0 m c t (ix2 p 0) = lossCol (V m c main_arg0) (V m c main_v0) (ix2 ⟨128 * t.val + p.val, h⟩ 0) := by
  unfold outsAt0
  rw [out_block]
  unfold lossCol
  show kernelRowW _ _ = kernelRowW _ _
  rw [iblk1_apply m c t p h]
  refine congrArg (fun x => kernelRowW x _) (funext fun j => ?_)
  exact iblk0_apply m c t p j h

/-- WHAT POINT `t` WRITES BACK is block `t` of the column. -/
theorem flushed_eq (c : Dev nD) (t : Fin cfg0.N) :
    (dats m 0 c).flushed 2 t = ((cfg0.win 2).blk t).view.read (Elt Ideal) (lossCol (V m c main_arg0) (V m c main_v0)) := by
  have hN : t.val < 64 := lt_of_lt_of_eq t.isLt (N_0 : cfg0.N = 64)
  obtain ⟨-, -, -, -, e0, e1⟩ := idx_facts t
  show (cfg0.win 2).cut (grid0.coords t) ((dats m 0 c).after 2 t) = _
  rw [after0_2]
  funext y
  have hp : (y 0).val < 128 := (y 0).isLt
  have hy : y = ix2 (⟨(y 0).val, hp⟩ : Fin 128) (0 : Fin 1) := by
    funext a
    match a with
    | ⟨0, _⟩ => rfl
    | ⟨1, _⟩ => exact Subsingleton.elim (α := Fin 1) _ _
  show outsAt0 m c t y = lossCol (V m c main_arg0) (V m c main_v0) (((cfg0.win 2).blk t).view.emb y)
  rw [hy, outsAt_apply m c t ⟨(y 0).val, hp⟩ (by show 128 * t.val + (y 0).val < 8192; omega)]
  refine congrArg (lossCol (V m c main_arg0) (V m c main_v0)) (funext fun a => Fin.ext ?_)
  match a with
  | ⟨0, _⟩ => show 128 * t.val + (y 0).val = win0_2.index t (0 : Fin 2) * 128 + 1 * (y 0).val; rw [e0]; omega
  | ⟨1, _⟩ => show 0 = win0_2.index t (1 : Fin 2) * 1 + 1 * 0; rw [e1]

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v1).slice (win0_2.rect t)).set ↔ _
  rw [View.set_slice_whole, Rect.mem_set_unit]
  exact Iff.rfl

/-- THE COLUMN after the run: every row is in the block of the point `row / 128`. -/
theorem final (c : Dev nD) : (dats m 0 c).arrAt 2 cfg0.N = lossCol (V m c main_arg0) (V m c main_v0) :=
  (dats m 0 c).arrAt_eq_of_cover 2 _ (fun t _ => flushed_eq m c t) fun i => by
    have hi0 : (i 0).val < 8192 := (i 0).isLt
    have hi1 : (i 1).val < 1 := (i 1).isLt
    have hN : cfg0.N = 64 := N_0
    let t : Fin cfg0.N := ⟨(i 0).val / 128, by rw [hN]; omega⟩
    obtain ⟨-, -, -, -, e0, e1⟩ := idx_facts t
    have e0' : win0_2.index t (0 : Fin 2) = (i 0).val / 128 := e0
    refine ⟨t, flush0_2 t, ?_⟩
    rw [mem_blk]
    intro a
    match a with
    | ⟨0, _⟩ => show win0_2.index t (0 : Fin 2) * 128 ≤ (i 0).val ∧ (i 0).val < win0_2.index t (0 : Fin 2) * 128 + 128; omega
    | ⟨1, _⟩ => show win0_2.index t (1 : Fin 2) * 1 ≤ (i 1).val ∧ (i 1).val < win0_2.index t (1 : Fin 2) * 1 + 1; omega

end Cert.KernelIdeal.ArrVal

end
-- ==== Proof.KernelValue.lean ====
/-
  The kernel program's result: the mean over the 8192 rows of the row function.

  Before the region the labels [8192] are reshaped to one column [8192, 1]: row `R` of the column is label `R`.
  After the region the result column is summed from zero over both its axes and the sum divided by 8192. With
  the column read row by row (KernelArray) the program's result is the mean of the row function
  of the logits' rows and the labels.
-/
import proofs.«430431_j75436805587459_3_alg».proof.Proof.KernelArray

set_option maxRecDepth 65536

noncomputable section

open scoped BigOperators

namespace Cert.KernelIdeal.ArrVal

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.KernelIdeal.BlockVal Cert.AamLoss

variable (m : (ℓ : Loc nD τ sig) → Buf (Elt Ideal) ℓ) (ρ : Dev nD → PrngReg)

/-- The labels column as the region finds it: the labels reshaped. -/
theorem V_main_v0 (c : Dev nD) :
    (V m c main_v0 : S8192x1.Idx → BitVec 32) = shapeCast S8192x1 (m ((c : Thread nD τ).loc main_arg1)) shapeCasts_S8192_S8192x1 := by
  show StableHlo.after hostOps0 (fun b => m (c, b)) (Proc.devRef .tc main_v0) = _
  after_results
  rfl

/-- Row `R` of the labels column is label `R`. -/
theorem labels_col (c : Dev nD) (R : Fin 8192) :
    V m c main_v0 (ix2 R (0 : Fin 1)) = m ((c : Thread nD τ).loc main_arg1) (ix1 R) := by
  rw [V_main_v0]
  exact shapeCast_apply _ shapeCasts_S8192_S8192x1 _ _ (by
    rw [Shape.rowMajor_val_two, Shape.rowMajor_val_one]
    show R.val = R.val * 1 + 0
    omega)

/-- The sum from zero of a [8192, 1] column over both axes, divided by 8192, is the mean of its rows. -/
theorem mean_col (f : FVec Ideal S8192x1 .f32) :
    Host.divf (F := Ideal) (Host.reduceAdd (F := Ideal) f (constant (F := Ideal) S_ .f32 0x00000000#32) reducesTo_S8192x1_S_d0_1 h_S_)
        (constant (F := Ideal) S_ .f32 0x46000000#32)
      = fun _ => meanOf (fun R => f (ix2 R (0 : Fin 1))) := by
  funext i
  unfold meanOf
  show Ideal.div _ _ = Ideal.div _ _
  refine congrArg (fun z => Ideal.div z w8192) ?_
  show Ideal.hostReduceAdd reducesTo_S8192x1_S_d0_1 f (Ideal.ofBits .f32 0x00000000#32) i = _
  rw [Ideal.hostReduceAdd_total reducesTo_S8192x1_S_d0_1 (fun b => b.elim0), Ideal.ofBits_zero_f32, zero_add, sum_idx2]
  refine Finset.sum_congr rfl fun R _ => ?_
  exact Fin.sum_univ_one _

/-- The program's result buffer after the lines that follow the region. -/
theorem tail_v3 (c : Dev nD) :
    Pipeline.afterTail₀ cfgs (dats m) 0 (V0 m) [hostOps1] c main_v3
      = fun _ => meanOf (fun R => kernelRowW (rowOf (m ((c : Thread nD τ).loc main_arg0)) R) (m ((c : Thread nD τ).loc main_arg1) (ix1 R))) := by
  unfold Pipeline.afterTail₀
  show StableHlo.after hostOps1 _ (Proc.devRef .tc main_v3) = _
  after_results
  rw [(Pipeline.withArrays_arr spec0 launch0.win.arr_inj c _ _ 2).trans (final m c)]
  refine (mean_col _).trans ?_
  funext _
  refine congrArg meanOf (funext fun R => ?_)
  unfold lossCol rowOf
  show kernelRowW _ _ = kernelRowW _ _
  rw [labels_col, V_main_arg0]

/-- THE RUN, READ: the result is the mean of the row function over the rows; the arguments are unchanged. -/
theorem run : θ_run defs (onTc (τ := τ) (main (F := Ideal))) ⟨m, fun _ => 0, ρ⟩ fun r => ∀ c : Dev nD,
      r.2.mem ((c.tc : Thread nD τ).loc main_v3)
        = (fun _ => meanOf (fun R => kernelRowW (rowOf (m ((c.tc : Thread nD τ).loc main_arg0)) R) (m ((c.tc : Thread nD τ).loc main_arg1) (ix1 R))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_v3 m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.ArrVal

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.RefRun.lean ====
/-
  The reference's run, read back one stretch at a time.

  The reference's 78 host operations are cut into six stretches: the 27 lines before the concatenate (the row
  norms, the normalized logits, the row and label index columns), the 7 lines that join the index columns, scatter
  the margin −½ at (row, label) and scale by 30, the 15 lines of log_softmax (the row maximum, the shifted
  exponentials, their sum's logarithm), the line that makes the labels a column, the 22 lines of take_along_axis,
  and the 6 lines of the negation and the mean. The lines of the two called functions write and read their buffers
  through a transport along an equation of buffer types; a value written and read back through the same transport
  is itself (`TRef.ofBuf_toBuf`, LibTypedRef), and the cuts are placed so that every other transport sits at a stretch's end, where it
  is the identity on a value already named. After each stretch the buffers the later
  stretches read hold the staged values `val_…` (one per operation, RefRead) of the arguments; chaining the six
  gives the result buffer after the whole list, and with it the run: every weakly fair execution ends with the
  result at the last stage of the arguments, the arguments unchanged.
-/
import proofs.«430431_j75436805587459_3_alg».proof.Proof.RefOps
import proofs.«430431_j75436805587459_3_alg».proof.Proof.RefRead
import Idealize.ShloMosaic.Lib.StableHlo.Run
import Idealize.ShloMosaic.Lib.Pipeline.Frame
import proofs.«430431_j75436805587459_3_alg».proof.Proof.LibTypedRef

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The list in six stretches -/

/-- The 27 operations before the concatenate: the normalized logits and the two index columns. -/
abbrev ops1 : List (HloOp τ sig (Elt F)) :=
  [ binary main_arg0 main_arg0 main_v0 (mulf : (⟨S8192x32000, .f32⟩ : BufTy).Contents (Elt F) → (⟨S8192x32000, .f32⟩ : BufTy).Contents (Elt F) → (⟨S8192x32000, .f32⟩ : BufTy).Contents (Elt F)),
    nullary main_cst (constant S_ .f32 0x00000000#32),
    binary main_v0 main_cst main_v1 ((fun x v => Host.reduceAdd x v reducesTo_S8192x32000_S8192_d1 h_S_) : (⟨S8192x32000, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (Host.sqrt : (⟨S8192x1, .f32⟩ : BufTy).Contents (Elt F) → (⟨S8192x1, .f32⟩ : BufTy).Contents (Elt F)),
    nullary main_cst_0 (constant S_ .f32 0x2B8CBCCC#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (maximumf : (⟨S8192x1, .f32⟩ : BufTy).Contents (Elt F) → (⟨S8192x1, .f32⟩ : BufTy).Contents (Elt F) → (⟨S8192x1, .f32⟩ : BufTy).Contents (Elt F)),
    unary main_v5 main_v6 (broadcastInDim S8192x32000 ![0, 1] bcast_S8192x1_S8192x32000_0_1 : (⟨S8192x1, .f32⟩ : BufTy).Contents (Elt F) → (⟨S8192x32000, .f32⟩ : BufTy).Contents (Elt F)),
    binary main_arg0 main_v6 main_v7 (Host.divf : (⟨S8192x32000, .f32⟩ : BufTy).Contents (Elt F) → (⟨S8192x32000, .f32⟩ : BufTy).Contents (Elt F) → (⟨S8192x32000, .f32⟩ : BufTy).Contents (Elt F)),
    nullary main_v8 (iotaInDim S8192 32 0),
    nullary main_c (constantI S_ 32 0#32),
    unary main_c main_v9 (broadcastInDim S8192 ![] bcast_S_S8192 : (⟨S_, .i32⟩ : BufTy).Contents (Elt F) → (⟨S8192, .i32⟩ : BufTy).Contents (Elt F)),
    binary main_v8 main_v9 main_v10 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8192#32),
    unary main_c_1 main_v11 (broadcastInDim S8192 ![] bcast_S_S8192 : (⟨S_, .i32⟩ : BufTy).Contents (Elt F) → (⟨S8192, .i32⟩ : BufTy).Contents (Elt F)),
    binary main_v8 main_v11 main_v12 (addi : (⟨S8192, .i32⟩ : BufTy).Contents (Elt F) → (⟨S8192, .i32⟩ : BufTy).Contents (Elt F) → (⟨S8192, .i32⟩ : BufTy).Contents (Elt F)),
    ternary main_v10 main_v12 main_v8 main_v13 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_2 (constantI S_ 32 0#32),
    unary main_c_2 main_v14 (broadcastInDim S8192 ![] bcast_S_S8192 : (⟨S_, .i32⟩ : BufTy).Contents (Elt F) → (⟨S8192, .i32⟩ : BufTy).Contents (Elt F)),
    binary main_arg1 main_v14 main_v15 (cmpi .slt : (⟨S8192, .i32⟩ : BufTy).Contents (Elt F) → (⟨S8192, .i32⟩ : BufTy).Contents (Elt F) → (⟨S8192, .i1⟩ : BufTy).Contents (Elt F)),
    nullary main_c_3 (constantI S_ 32 32000#32),
    unary main_c_3 main_v16 (broadcastInDim S8192 ![] bcast_S_S8192 : (⟨S_, .i32⟩ : BufTy).Contents (Elt F) → (⟨S8192, .i32⟩ : BufTy).Contents (Elt F)),
    binary main_arg1 main_v16 main_v17 (addi : (⟨S8192, .i32⟩ : BufTy).Contents (Elt F) → (⟨S8192, .i32⟩ : BufTy).Contents (Elt F) → (⟨S8192, .i32⟩ : BufTy).Contents (Elt F)),
    ternary main_v15 main_v17 main_arg1 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v13 main_v19 (broadcastInDim S8192x1 ![0] bcast_S8192_S8192x1_0 : (⟨S8192, .i32⟩ : BufTy).Contents (Elt F) → (⟨S8192x1, .i32⟩ : BufTy).Contents (Elt F)),
    unary main_v18 main_v20 (broadcastInDim S8192x1 ![0] bcast_S8192_S8192x1_0 : (⟨S8192, .i32⟩ : BufTy).Contents (Elt F) → (⟨S8192x1, .i32⟩ : BufTy).Contents (Elt F)) ]

/-- The concatenate of the index columns, the scatter of the margin and the scaling by 30. -/
abbrev ops2 : List (HloOp τ sig (Elt F)) :=
  [ binary main_v19 main_v20 main_v21 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    nullary main_cst_4 (constant S_ .f32 0xBF000000#32),
    unary main_cst_4 main_v22 (broadcastInDim S8192 ![] bcast_S_S8192 : (⟨S_, .f32⟩ : BufTy).Contents (Elt F) → (⟨S8192, .f32⟩ : BufTy).Contents (Elt F)),
    ternary main_v7 main_v21 main_v22 main_v23 ((fun x i u => Host.scatterAdd scatter_S8192x32000_S8192x2_S8192_n_01_01_1 x i u) : (⟨S8192x32000, .f32⟩ : BufTy).Contents (Elt F) → (⟨S8192x2, .i32⟩ : BufTy).Contents (Elt F) → (⟨S8192, .f32⟩ : BufTy).Contents (Elt F) → (⟨S8192x32000, .f32⟩ : BufTy).Contents (Elt F)),
    nullary main_cst_5 (constant S_ .f32 0x41F00000#32),
    unary main_cst_5 main_v24 (broadcastInDim S8192x32000 ![] bcast_S_S8192x32000 : (⟨S_, .f32⟩ : BufTy).Contents (Elt F) → (⟨S8192x32000, .f32⟩ : BufTy).Contents (Elt F)),
    binary main_v23 main_v24 main_v25 (mulf : (⟨S8192x32000, .f32⟩ : BufTy).Contents (Elt F) → (⟨S8192x32000, .f32⟩ : BufTy).Contents (Elt F) → (⟨S8192x32000, .f32⟩ : BufTy).Contents (Elt F)) ]

/-- The 15 operations of log_softmax. -/
abbrev ops3 : List (HloOp τ sig (Elt F)) :=
  [ TRef.nullary (TRef.of (T := ⟨S_, .f32⟩) main_call0_cst) (constant S_ .f32 0xFF800000#32),
    TRef.binary (TRef.of (T := ⟨S8192x32000, .f32⟩) main_v25) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_v25) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v26) subf ]

/-- The labels as a column. -/
abbrev ops4 : List (HloOp τ sig (Elt F)) :=
  [ unary main_arg1 main_v27 (broadcastInDim S8192x1 ![0] bcast_S8192_S8192x1_0 : (⟨S8192, .i32⟩ : BufTy).Contents (Elt F) → (⟨S8192x1, .i32⟩ : BufTy).Contents (Elt F)) ]

/-- The 22 operations of take_along_axis. -/
abbrev ops5 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v27) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v27) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v27) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x32000, .f32⟩) main_v26) (TRef.of (T := ⟨S8192x1x1, .i32⟩) main_call1_v5) (TRef.of (T := ⟨S8192x1, .f32⟩) main_call1_v13) (fun x i => Host.gather gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v28) select ]

/-- The reshape, the negation and the mean. -/
abbrev ops6 : List (HloOp τ sig (Elt F)) :=
  [ reshape main_v28 main_v29 rfl shapeCasts_S8192x1_S8192,
    unary main_v29 main_v30 (Host.negf : (⟨S8192, .f32⟩ : BufTy).Contents (Elt F) → (⟨S8192, .f32⟩ : BufTy).Contents (Elt F)),
    nullary main_cst_6 (constant S_ .f32 0x00000000#32),
    binary main_v30 main_cst_6 main_v31 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v31 main_cst_7 main_v32 (Host.divf : (⟨S_, .f32⟩ : BufTy).Contents (Elt F) → (⟨S_, .f32⟩ : BufTy).Contents (Elt F) → (⟨S_, .f32⟩ : BufTy).Contents (Elt F)) ]

/-- The program's list is the six stretches in order. -/
theorem ops_split : (ops : List (HloOp τ sig (Elt F))) = ops1 ++ ops2 ++ ops3 ++ ops4 ++ ops5 ++ ops6 := rfl

/-- After the first stretch: the normalized logits, the two index columns, and the labels as they were. -/
theorem stretch1 (V : Valuation τ sig (Elt F)) :
    after ops1 V (Proc.devRef .tc main_v7) = val_main_v7 (F := F) (V (Proc.devRef .tc main_arg0))
    ∧ after ops1 V (Proc.devRef .tc main_v19) = val_main_v19 (F := F)
    ∧ after ops1 V (Proc.devRef .tc main_v20) = val_main_v20 (F := F) (V (Proc.devRef .tc main_arg1))
    ∧ after ops1 V (Proc.devRef .tc main_arg1) = V (Proc.devRef .tc main_arg1) := by
  refine ⟨?_, ?_, ?_, ?_⟩ <;> after_results_simp <;> rfl

/-- After the second stretch: the scaled logits, from the first stretch's three values. -/
theorem stretch2 (V : Valuation τ sig (Elt F)) (x0 : (⟨S8192x32000, .f32⟩ : BufTy).Contents (Elt F)) (x1 : (⟨S8192, .i32⟩ : BufTy).Contents (Elt F))
    (h7 : V (Proc.devRef .tc main_v7) = val_main_v7 (F := F) x0) (h19 : V (Proc.devRef .tc main_v19) = val_main_v19 (F := F))
    (h20 : V (Proc.devRef .tc main_v20) = val_main_v20 (F := F) x1) :
    after ops2 V (Proc.devRef .tc main_v25) = val_main_v25 (F := F) x0 x1 := by
  after_results_simp
  rw [h7, h19, h20]
  rfl

/-- The second stretch leaves the labels as they were. -/
theorem stretch2_arg1 (V : Valuation τ sig (Elt F)) :
    after ops2 V (Proc.devRef .tc main_arg1) = V (Proc.devRef .tc main_arg1) := by
  after_results_simp <;> rfl

/-- After the third stretch: log_softmax of the scaled logits. -/
theorem stretch3 (V : Valuation τ sig (Elt F)) (x0 : (⟨S8192x32000, .f32⟩ : BufTy).Contents (Elt F)) (x1 : (⟨S8192, .i32⟩ : BufTy).Contents (Elt F))
    (h25 : V (Proc.devRef .tc main_v25) = val_main_v25 (F := F) x0 x1) :
    after ops3 V (Proc.devRef .tc main_v26) = val_main_v26 (F := F) x0 x1 := by
  after_results_simp
  simp only [TRef.ofBuf_toBuf, cast_cast_cancel]
  have e25 : (TRef.of (T := ⟨S8192x32000, .f32⟩) main_v25).ofBuf (V (Proc.devRef .tc main_v25)) = val_main_v25 (F := F) x0 x1 := h25
  rw [e25]
  refine (congrArg _ (?_ : _ = val_main_v26 (F := F) x0 x1)).trans ?_
  · rfl
  · rfl

/-- The third stretch leaves the labels as they were. -/
theorem stretch3_arg1 (V : Valuation τ sig (Elt F)) :
    after ops3 V (Proc.devRef .tc main_arg1) = V (Proc.devRef .tc main_arg1) := by
  after_results_simp <;> rfl

/-- After the fourth stretch: the labels as a column; log_softmax's value as it was. -/
theorem stretch4 (V : Valuation τ sig (Elt F)) :
    after ops4 V (Proc.devRef .tc main_v27) = val_main_v27 (F := F) (V (Proc.devRef .tc main_arg1))
    ∧ after ops4 V (Proc.devRef .tc main_v26) = V (Proc.devRef .tc main_v26) := by
  refine ⟨?_, ?_⟩ <;> after_results_simp <;> rfl

/-- After the fifth stretch: log_softmax's value at each row's label. -/
theorem stretch5 (V : Valuation τ sig (Elt F)) (x0 : (⟨S8192x32000, .f32⟩ : BufTy).Contents (Elt F)) (x1 : (⟨S8192, .i32⟩ : BufTy).Contents (Elt F))
    (h26 : V (Proc.devRef .tc main_v26) = val_main_v26 (F := F) x0 x1) (h27 : V (Proc.devRef .tc main_v27) = val_main_v27 (F := F) x1) :
    after ops5 V (Proc.devRef .tc main_v28) = val_main_v28 (F := F) x0 x1 := by
  after_results_simp
  simp only [TRef.ofBuf_toBuf, cast_cast_cancel]
  have e26 : (TRef.of (T := ⟨S8192x32000, .f32⟩) main_v26).ofBuf (V (Proc.devRef .tc main_v26)) = val_main_v26 (F := F) x0 x1 := h26
  have e27 : (TRef.of (T := ⟨S8192x1, .i32⟩) main_v27).ofBuf (V (Proc.devRef .tc main_v27)) = val_main_v27 (F := F) x1 := h27
  rw [e26, e27]
  refine (congrArg _ (?_ : _ = val_main_v28 (F := F) x0 x1)).trans ?_
  · rfl
  · rfl

/-- After the sixth stretch: the result, from the taken values. -/
theorem stretch6 (V : Valuation τ sig (Elt F)) (x0 : (⟨S8192x32000, .f32⟩ : BufTy).Contents (Elt F)) (x1 : (⟨S8192, .i32⟩ : BufTy).Contents (Elt F))
    (h28 : V (Proc.devRef .tc main_v28) = val_main_v28 (F := F) x0 x1) :
    after ops6 V (Proc.devRef .tc main_v32) = val_main_v32 (F := F) x0 x1 := by
  after_results_simp
  rw [h28]
  rfl

/-- The result buffer after all 78 operations is the last stage of the arguments. -/
theorem result_eq (V : Valuation τ sig (Elt F)) :
    after ops V (Proc.devRef .tc main_v32) = val_main_v32 (F := F) (V (Proc.devRef .tc main_arg0)) (V (Proc.devRef .tc main_arg1)) := by
  rw [ops_split, StableHlo.after_append, StableHlo.after_append, StableHlo.after_append, StableHlo.after_append, StableHlo.after_append]
  obtain ⟨a7, a19, a20, a1⟩ := stretch1 (F := F) V
  have b25 := stretch2 (F := F) (after ops1 V) _ _ a7 a19 a20
  have b1 : after ops2 (after ops1 V) (Proc.devRef .tc main_arg1) = V (Proc.devRef .tc main_arg1) := (stretch2_arg1 _).trans a1
  have c26 := stretch3 (F := F) (after ops2 (after ops1 V)) _ _ b25
  have c1 : after ops3 (after ops2 (after ops1 V)) (Proc.devRef .tc main_arg1) = V (Proc.devRef .tc main_arg1) := (stretch3_arg1 _).trans b1
  obtain ⟨d27, d26⟩ := stretch4 (F := F) (after ops3 (after ops2 (after ops1 V)))
  have e28 := stretch5 (F := F) (after ops4 (after ops3 (after ops2 (after ops1 V)))) _ _ (d26.trans c26) (d27.trans (congrArg _ c1))
  exact stretch6 (F := F) _ _ _ e28

set_option maxRecDepth 8192 in
set_option maxHeartbeats 31200000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = val_main_v32 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (result_eq _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.ValueP

end
-- ==== Proof.RefGather.lean ====
/-
  Three operations of the reference, read at an index over the extended reals.

  * The gather that takes one element per row: the operand's axis 0 is a batching axis (its coordinate is the
    result's row R, with start 0) and its axis 1 is collapsed, with the start read off the indices at (R, 0, 0)
    as a signed number and clamped into [0, 32000 − 1]. A start below 32000 is nonnegative as a signed number
    and is left alone by the clamp, so the element read is the operand's at (R, ℓ_R).
  * A conjunction over an axis of extent one folds, from the bit 1, over a single element: it is that element.
  * A row's maximum, taken from −∞ over 32000 > 0 real numbers, is a real number: the maximum of −∞ and a
    real is the real, and the maximum of two reals is a real.
-/
import proofs.«430431_j75436805587459_3_alg».proof.Proof.Gen.ReferenceIdeal
import proofs.«430431_j75436805587459_3_alg».proof.Proof.Spec
import Idealize.ShloMosaic.Lib.ValueIdx
import Idealize.ShloMosaic.PureOps.Ideal.Laws
import Idealize.ShloMosaic.PureOps.Reduce

noncomputable section

open scoped BigOperators

namespace Cert.AamLoss

open Cert.ReferenceIdeal Cert.ReferenceIdeal.Gen Idealize.ShloMosaic Idealize.ShloMosaic.ValueIdx

/-! ## The gather of one element per row -/

/-- A start index below 32000 is not moved by the clamp into [0, 32000 − 1], and read signed it is its own number. -/
theorem clamp_label (w : BitVec 32) (h : w.toNat < 32000) : min w.toInt.toNat (32000 - 1) = (labIdx w).val := by
  rw [labIdx_val h, BitVec.toInt_eq_toNat_cond, if_pos (by omega)]
  simp only [Int.toNat_natCast]
  omega

/-- One element per row, row R's at column ℓ_R (a class index): the gather at (R, 0) is the operand at (R, ℓ_R). -/
theorem gather_rows (y : FVec Ideal S8192x32000 .f32) (idx : IVec S8192x1x1 32)
    (h : ∀ R : Fin 8192, (idx (ix3 R 0 0)).toNat < 32000) (R : Fin 8192) :
    Host.gather gather_S8192x32000_S8192x1x1_S8192x1_n_1_0_0_1_2_11 y idx (ix2 R 0) = y (ix2 R (labIdx (idx (ix3 R 0 0)))) := by
  unfold Host.gather
  congr 1
  funext a
  refine Fin.ext ?_
  match a with
  | ⟨0, _⟩ =>
    -- the batching axis: the row of the result
    show gather_S8192x32000_S8192x1x1_S8192x1_n_1_0_0_1_2_11.start (ix2 R 0) idx 0
        + gather_S8192x32000_S8192x1x1_S8192x1_n_1_0_0_1_2_11.batchCoord (ix2 R 0) 0
        + gather_S8192x32000_S8192x1x1_S8192x1_n_1_0_0_1_2_11.offCoord (ix2 R 0) 0 = R.val
    rw [GatherDims.start_batching _ _ _ _ (List.mem_singleton.mpr rfl),
      GatherDims.offCoord_eq_zero _ _ _ (fun hk => ((GatherDims.mem_sKept _ _).mp hk).2 (List.mem_singleton.mpr rfl))]
    simp only [Nat.zero_add, Nat.add_zero]
    unfold GatherDims.batchCoord
    rw [dif_pos (show (0 : Fin 2) ∈ gather_S8192x32000_S8192x1x1_S8192x1_n_1_0_0_1_2_11.operandBatchingDims from
      List.mem_singleton.mpr rfl)]
    rfl
  | ⟨1, _⟩ =>
    -- the collapsed axis: the start index, which the clamp leaves alone
    show gather_S8192x32000_S8192x1x1_S8192x1_n_1_0_0_1_2_11.start (ix2 R 0) idx 1
        + gather_S8192x32000_S8192x1x1_S8192x1_n_1_0_0_1_2_11.batchCoord (ix2 R 0) 1
        + gather_S8192x32000_S8192x1x1_S8192x1_n_1_0_0_1_2_11.offCoord (ix2 R 0) 1 = (labIdx (idx (ix3 R 0 0))).val
    rw [GatherDims.batchCoord_eq_zero _ _ _ (by decide),
      GatherDims.offCoord_eq_zero _ _ _ (fun hk => ((GatherDims.mem_sKept _ _).mp hk).1 (List.mem_singleton.mpr rfl))]
    simp only [Nat.add_zero]
    unfold GatherDims.start
    rw [dif_pos (show (1 : Fin 2) ∈ gather_S8192x32000_S8192x1x1_S8192x1_n_1_0_0_1_2_11.startIndexMap from
      List.mem_singleton.mpr rfl)]
    have hsi : gather_S8192x32000_S8192x1x1_S8192x1_n_1_0_0_1_2_11.siIdx (ix2 R 0)
        ⟨List.idxOf (1 : Fin 2) gather_S8192x32000_S8192x1x1_S8192x1_n_1_0_0_1_2_11.startIndexMap,
          List.idxOf_lt_length_iff.2 (List.mem_singleton.mpr rfl)⟩ = ix3 R 0 0 := by
      funext b; refine Fin.ext ?_
      match b with
      | ⟨0, _⟩ => rfl
      | ⟨1, _⟩ => rfl
      | ⟨2, _⟩ => rfl
    rw [hsi]
    exact clamp_label _ (h R)

/-! ## The conjunction over a unit axis -/

/-- A fold over an index set of one element, from b, is the operation at that element and b. -/
theorem fold_fin_one {α : Type} (op : α → α → α) [Std.Commutative op] [Std.Associative op] (b : α) {n : Nat} (hn : n = 1)
    (g : Fin n → α) : (Finset.univ : Finset (Fin n)).fold op b g = op (g ⟨0, by omega⟩) b := by
  subst hn
  rw [Finset.univ_unique, Finset.fold_singleton]
  rfl

/-- The conjunction over an axis of extent one is the one element. -/
theorem and_unit (v : IVec S8192x1x1 1) (R : Fin 8192) :
    Host.reduce IntOp.andi v (constantI S_ 1 1#1) reducesTo_S8192x1x1_S8192x1_d2 h_S_ (ix2 R 0) = v (ix3 R 0 0) := by
  have hr : S8192x1x1.Reduces [2] S8192x1 := by decide
  rw [Host.reduce_eq_fold_single IntOp.andi v _ reducesTo_S8192x1x1_S8192x1_d2 hr h_S_]
  rw [fold_fin_one IntOp.andi _ (rfl : S8192x1x1.size 2 = 1)]
  have hl : hr.lift (ix2 R 0) ⟨0, by decide⟩ = ix3 R 0 0 := by
    funext c; refine Fin.ext ?_
    match c with
    | ⟨0, _⟩ => rfl
    | ⟨1, _⟩ => rfl
    | ⟨2, _⟩ => rfl
  show IntOp.andi (v (hr.lift (ix2 R 0) ⟨0, _⟩)) 1#1 = _
  rw [hl]
  generalize v (ix3 R 0 0) = b
  revert b; decide

/-! ## The maximum of a row of real numbers -/

/-- The maximum, from −∞, over a nonempty finite family of real numbers is a real number. -/
theorem fold_max_real {ι : Type} (g : ι → EReal) (S : Finset ι) (hS : S.Nonempty)
    (hg : ∀ k ∈ S, ∃ r : ℝ, g k = (r : EReal)) : ∃ μ : ℝ, S.fold max (⊥ : EReal) g = (μ : EReal) := by
  induction hS using Finset.Nonempty.cons_induction with
  | singleton a =>
    obtain ⟨r, hr⟩ := hg a (Finset.mem_singleton_self a)
    exact ⟨r, by rw [Finset.fold_singleton, hr, max_bot_right]⟩
  | cons a S ha hS ih =>
    obtain ⟨r, hr⟩ := hg a (Finset.mem_cons_self a S)
    obtain ⟨μ, hμ⟩ := ih (fun k hk => hg k (Finset.mem_cons.2 (Or.inr hk)))
    exact ⟨max r μ, by rw [Finset.fold_cons, hr, hμ]; exact (EReal.coe_strictMono.monotone.map_max).symm⟩

/-- The word 0xFF800000 denotes −∞. -/
theorem ofBits_neg_inf : Ideal.ofBits .f32 0xFF800000#32 = (⊥ : EReal) := by
  simp [Ideal.ofBits, Ideal.ieee]

/-- The maximum over a row of real numbers (from the initial value −∞) is a real number. -/
theorem rowmax_real (s : FVec Ideal S8192x32000 .f32) (R : Fin 8192)
    (hs : ∀ j : Fin 32000, ∃ r : ℝ, s (ix2 R j) = (r : EReal)) :
    ∃ μ : ℝ, Host.reduce FloatOps.maximumf s (constant (F := Ideal) S_ .f32 0xFF800000#32) reducesTo_S8192x32000_S8192_d1 h_S_ (ix1 R) = (μ : EReal) := by
  have hr : S8192x32000.Reduces [1] S8192 := by decide
  rw [Host.reduce_eq_fold_single FloatOps.maximumf s _ reducesTo_S8192x32000_S8192_d1 hr h_S_]
  have hl : ∀ k : Fin 32000, hr.lift (ix1 R) k = ix2 R k := by
    intro k; funext c; refine Fin.ext ?_
    match c with
    | ⟨0, _⟩ => rfl
    | ⟨1, _⟩ => rfl
  show ∃ μ : ℝ, (Finset.univ : Finset (Fin 32000)).fold max (Ideal.ofBits .f32 0xFF800000#32) (s ∘ hr.lift (ix1 R)) = (μ : EReal)
  rw [ofBits_neg_inf]
  refine fold_max_real _ _ ⟨⟨0, by norm_num⟩, Finset.mem_univ _⟩ (fun k _ => ?_)
  show ∃ r : ℝ, s (hr.lift (ix1 R) k) = (r : EReal)
  rw [hl k]
  exact hs k

end Cert.AamLoss

end
-- ==== Proof.RefScatter.lean ====
/-
  Two operations of the reference read at an index.

  The scatter indices are the two one-column arrays of row numbers and of labels joined along the columns:
  at (R, 0) the joined array is the first, at (R, 1) the second.

  The scatter-add has one update per row and no window axes (both operand axes are inserted): update R lands at
  the operand index whose two coordinates are the two components of its index vector, read signed and not
  clamped. A row word is the row's number and a label word below 32000 is a number below 2³¹, so both read as
  themselves: update R lands at (R, ℓ_R), inside the operand. Hence the updates landing at (R, j) are update R
  alone when j = ℓ_R and none otherwise, and the sum over them is that update or zero.
-/
import proofs.«430431_j75436805587459_3_alg».proof.Proof.Gen.ReferenceIdeal
import proofs.«430431_j75436805587459_3_alg».proof.Proof.Spec
import Idealize.ShloMosaic.Lib.ValueIdx
import Idealize.ShloMosaic.Lib.Pipeline.Value
import Idealize.ShloMosaic.PureOps.Ideal.Laws

noncomputable section

open scoped BigOperators

namespace Cert.AamLoss

open Cert.ReferenceIdeal Cert.ReferenceIdeal.Facts₀ Idealize.ShloMosaic Idealize.ShloMosaic.ValueIdx

/-! ### The concatenation -/

/-- Joining two one-column arrays along the columns: column 0 is the first, column 1 the second. -/
theorem concat_cols (a b : IVec S8192x1 32) (R : Fin 8192) :
    concatenate S8192x2 1 [⟨S8192x1, a⟩, ⟨S8192x1, b⟩] concatenates_S8192x1_S8192x1_S8192x2_d1 (ix2 R 0) = a (ix2 R 0)
    ∧ concatenate S8192x2 1 [⟨S8192x1, a⟩, ⟨S8192x1, b⟩] concatenates_S8192x1_S8192x1_S8192x2_d1 (ix2 R 1) = b (ix2 R 0) := by
  constructor
  · exact concatenate_pair_apply_left 1 a b concatenates_S8192x1_S8192x1_S8192x2_d1 (ix2 R 0) rfl (ix2 R 0)
      (fun c => by match c with | ⟨0, _⟩ => rfl | ⟨1, _⟩ => rfl)
  · exact concatenate_pair_apply_right 1 a b concatenates_S8192x1_S8192x1_S8192x2_d1 (ix2 R 1) rfl rfl (ix2 R 0)
      (fun c hc => by match c, hc with | ⟨0, _⟩, _ => rfl | ⟨1, _⟩, hc => exact absurd rfl hc) rfl

/-! ### Words read signed -/

/-- A 32-bit word below 2³¹ reads the same signed and unsigned. -/
theorem toInt_of_lt (b : BitVec 32) (h : b.toNat < 2 ^ 31) : b.toInt = (b.toNat : Int) :=
  BitVec.toInt_eq_toNat_of_lt (by omega)

/-- The row word reads back the row's number. -/
theorem toInt_ofNat_row (R : Fin 8192) : (BitVec.ofNat 32 R.val).toInt = (R.val : Int) := by
  have h : (BitVec.ofNat 32 R.val).toNat = R.val := by
    rw [BitVec.toNat_ofNat]; have := R.isLt; omega
  rw [toInt_of_lt _ (by rw [h]; have := R.isLt; omega), h]

/-! ### Where an update lands -/

section Scatter

local notation "dS" => scatter_S8192x32000_S8192x2_S8192_n_01_01_1

variable (idx : IVec S8192x2 32)

/-- Both operand axes are inserted: no window coordinate. -/
theorem window_zero (q : S8192.Idx) (a : Fin 2) : ScatterDims.window dS q a = 0 := by
  have h : ∀ a : Fin 2, a ∉ ScatterDims.sKept dS := by decide
  unfold ScatterDims.window
  rw [dif_neg (h a)]

/-- Update R' reads its row component at (R', 0). -/
theorem start_zero (R' : Fin 8192) : ScatterDims.start dS (ix1 R') idx 0 = (idx (ix2 R' 0)).toInt := by
  unfold ScatterDims.start
  rw [dif_pos (show (0 : Fin 2) ∈ ScatterDims.scatterDimsToOperandDims dS by decide)]
  congr 2
  funext b; refine Fin.ext ?_
  match b with
  | ⟨0, _⟩ => rfl
  | ⟨1, _⟩ => rfl

/-- Update R' reads its column component at (R', 1). -/
theorem start_one (R' : Fin 8192) : ScatterDims.start dS (ix1 R') idx 1 = (idx (ix2 R' 1)).toInt := by
  unfold ScatterDims.start
  rw [dif_pos (show (1 : Fin 2) ∈ ScatterDims.scatterDimsToOperandDims dS by decide)]
  congr 2
  funext b; refine Fin.ext ?_
  match b with
  | ⟨0, _⟩ => rfl
  | ⟨1, _⟩ => rfl

/-- Update R' lands at (R', its label), inside the operand. -/
theorem resultIdx_row (h0 : ∀ R : Fin 8192, idx (ix2 R 0) = BitVec.ofNat 32 R.val)
    (h1 : ∀ R : Fin 8192, (idx (ix2 R 1)).toNat < 32000) (R' : Fin 8192) :
    ScatterDims.resultIdx? dS (ix1 R') idx = some (ix2 R' (labIdx (idx (ix2 R' 1)))) := by
  have k0 : ScatterDims.start dS (ix1 R') idx 0 + (ScatterDims.window dS (ix1 R') 0 : Int) = (R'.val : Int) := by
    rw [window_zero, start_zero, h0, toInt_ofNat_row]; simp
  have k1 : ScatterDims.start dS (ix1 R') idx 1 + (ScatterDims.window dS (ix1 R') 1 : Int)
      = ((labIdx (idx (ix2 R' 1))).val : Int) := by
    rw [window_zero, start_one, toInt_of_lt _ (by have := h1 R'; omega), labIdx_val (h1 R')]; simp
  have key : ∀ a : Fin 2, ScatterDims.start dS (ix1 R') idx a + (ScatterDims.window dS (ix1 R') a : Int)
      = (((ix2 R' (labIdx (idx (ix2 R' 1))) : S8192x32000.Idx) a).val : Int) := by
    intro a
    match a with
    | ⟨0, _⟩ => exact k0
    | ⟨1, _⟩ => exact k1
  unfold ScatterDims.resultIdx?
  rw [dif_pos (fun a => by
    rw [key a]
    exact ⟨Int.natCast_nonneg _, by exact_mod_cast ((ix2 R' (labIdx (idx (ix2 R' 1))) : S8192x32000.Idx) a).isLt⟩)]
  congr 1
  funext a
  refine Fin.ext ?_
  show (ScatterDims.start dS (ix1 R') idx a + (ScatterDims.window dS (ix1 R') a : Int)).toNat = _
  rw [key a]
  exact Int.toNat_natCast _

end Scatter

/-! ### The scatter-add at an index -/

/-- One update per row, row R's landing at (R, ℓ_R): at (R, j) the scatter-add is the operand plus the row's update where j is the row's label. -/
theorem scatter_rows (y : FVec Ideal S8192x32000 .f32) (idx : IVec S8192x2 32) (upd : FVec Ideal S8192 .f32)
    (h0 : ∀ R : Fin 8192, idx (ix2 R 0) = BitVec.ofNat 32 R.val)
    (h1 : ∀ R : Fin 8192, (idx (ix2 R 1)).toNat < 32000)
    (R : Fin 8192) (j : Fin 32000) :
    Host.scatterAdd (F := Ideal) scatter_S8192x32000_S8192x2_S8192_n_01_01_1 y idx upd (ix2 R j)
      = y (ix2 R j) + (if j = labIdx (idx (ix2 R 1)) then upd (ix1 R) else 0) := by
  show y (ix2 R j) + ∑ q ∈ Finset.univ.filter (fun q =>
    ScatterDims.resultIdx? scatter_S8192x32000_S8192x2_S8192_n_01_01_1 q idx = some (ix2 R j)), upd q = _
  congr 1
  have hq : ∀ q : S8192.Idx,
      ScatterDims.resultIdx? scatter_S8192x32000_S8192x2_S8192_n_01_01_1 q idx = some (ix2 R j)
      → q = ix1 R ∧ j = labIdx (idx (ix2 R 1)) := by
    intro q hq
    obtain ⟨r, rfl⟩ : ∃ r : Fin 8192, q = ix1 r := ⟨q 0, eq_ix1 q⟩
    rw [resultIdx_row idx h0 h1 r] at hq
    have e := Option.some.inj hq
    have e0 : r = R := congrFun e 0
    have e1 : labIdx (idx (ix2 r 1)) = j := congrFun e 1
    rw [e0] at e1
    exact ⟨by rw [e0], e1.symm⟩
  split_ifs with hj
  · rw [Finset.sum_eq_single (ix1 R)]
    · intro q hqm hne
      exact absurd (hq q (Finset.mem_filter.1 hqm).2).1 hne
    · intro hnm
      exact absurd (Finset.mem_filter.2 ⟨Finset.mem_univ _, by rw [resultIdx_row idx h0 h1 R, hj]⟩) hnm
  · exact Finset.sum_eq_zero fun q hqm => absurd (hq q (Finset.mem_filter.1 hqm).2).2 hj

end Cert.AamLoss

end
-- ==== Proof.RefValue.lean ====
/-
  The reference's result as the mean of its rows.

  Row by row the reference computes, with n = max (√ Σⱼ xⱼ²) ε the clamped norm of the row and ℓ its label,
  the scaled logits sⱼ = (xⱼ / n − ½·[j = ℓ])·30, shifts them by the row's maximum M, and takes the negated
  log-softmax at the label:  −((s_ℓ − M) − log Σⱼ exp (sⱼ − M)). Its result is the sum of these over the 8192
  rows divided by 8192. The steps below read each operation at an index and meet the specification's
  `rowNorm`, `refScaled` and `refRow`:
    * a label below 32000 is nonnegative as a signed number, so the "negative index" normalisations (add the
      extent when negative) leave the labels and the row numbers alone, and the in-range mask is set;
    * the scatter adds −½ at the label's column only, the gather reads the label's column;
    * a broadcast along a row or a reshape between [8192], [8192, 1] and [8192, 1, 1] reads the same row.
-/
import proofs.«430431_j75436805587459_3_alg».proof.Proof.RefRead
import proofs.«430431_j75436805587459_3_alg».proof.Proof.Spec
import proofs.«430431_j75436805587459_3_alg».proof.Proof.RowAlgebra
import proofs.«430431_j75436805587459_3_alg».proof.Proof.RefGather
import proofs.«430431_j75436805587459_3_alg».proof.Proof.RefScatter
import Idealize.ShloMosaic.Lib.ValueIdx
import Idealize.ShloMosaic.PureOps.Ideal.Laws

noncomputable section

open scoped BigOperators

namespace Cert.AamLoss

open Cert.ReferenceIdeal Cert.ReferenceIdeal.Gen Cert.ReferenceIdeal.ReadP Idealize.ShloMosaic Idealize.ShloMosaic.ValueIdx

/-! ## Words: nonnegative words pass the "negative index" normalisation unchanged -/

/-- A word below 2³¹ is not negative as a signed number. -/
theorem not_slt_zero (a : BitVec 32) (h : a.toNat < 2147483648) : ¬ IntOp.cmpi .slt a 0#32 = 1#1 := by
  rw [IntOp.cmpi_slt]
  have e0 : (0#32 : BitVec 32).toInt = 0 := by decide
  rw [e0, BitVec.toInt_eq_toNat_cond, if_pos (by omega)]
  omega

/-- "Add c when negative" leaves a word below 2³¹ alone. -/
theorem sel_nonneg (a c : BitVec 32) (h : a.toNat < 2147483648) :
    Scalar.select (IntOp.cmpi .slt a 0#32) (IntOp.addi a c) a = a := by
  rw [eq_zero_of_ne_one (not_slt_zero a h), select_zero]

/-- A word below 32000 is, as a signed number, at least 0 and at most 31999. -/
theorem in_range_bits (a : BitVec 32) (h : a.toNat < 32000) :
    IntOp.andi (IntOp.cmpi .sge a 0#32) (IntOp.cmpi .sle a 31999#32) = 1#1 := by
  have e0 : (0#32 : BitVec 32).toInt = 0 := by decide
  have e1 : (31999#32 : BitVec 32).toInt = 31999 := by decide
  have ha : a.toInt = (a.toNat : Int) := by rw [BitVec.toInt_eq_toNat_cond, if_pos (by omega)]
  refine IntOp.andi_eq_one.2 ⟨IntOp.cmpi_sge.2 ?_, IntOp.cmpi_sle.2 ?_⟩
  · rw [e0, ha]; omega
  · rw [e1, ha]; omega

/-- The word of a row number below 8192 has that number as its value. -/
theorem toNat_row (R : Fin 8192) : (BitVec.ofNat 32 R.val).toNat = R.val := by
  rw [BitVec.toNat_ofNat]
  exact Nat.mod_eq_of_lt (by have := R.isLt; omega)

/-! ## The clamped norm of a row -/

/-- The norm column at row R is the specification's clamped norm of row R. -/
theorem norm_at (x : FVec Ideal S8192x32000 .f32) (R : Fin 8192) :
    val_main_v5 (F := Ideal) x (ix2 R 0) = rowNorm (rowOf x R) := by
  have hi : ∀ k : Fin 32000, idx_main_v1 (idx_main_v2 (ix2 R (0 : Fin 1))) k = ix2 R k := fun k =>
    funext fun a => Fin.ext (by match a with | ⟨0, _⟩ => rfl | ⟨1, _⟩ => rfl)
  rw [val_main_v5_apply, val_main_v3_apply, val_main_v2_apply, val_main_v1_apply, val_main_v4_apply,
    val_main_cst_0_apply, val_main_cst_apply]
  simp only [val_main_v0_apply, hi, Ideal.maximumf_def, Ideal.hostUnary_sqrt_def, Ideal.mulf_def, Ideal.ofBits_def,
    Ideal.ofBits_zero_f32, zero_add]
  rfl

/-! ## The scatter's indices: the row number and the label -/

/-- The normalised row numbers are the row numbers. -/
theorem rows_at (R : Fin 8192) : val_main_v13 (F := Ideal) (ix1 R) = BitVec.ofNat 32 R.val := by
  rw [val_main_v13_apply, val_main_v10_apply, val_main_v12_apply, val_main_v9_apply, val_main_c_apply, val_main_v8_apply]
  exact sel_nonneg _ _ (by rw [toNat_row]; have := R.isLt; omega)

/-- The normalised labels are the labels. -/
theorem labels_at (lab : IVec S8192 32) (hlab : ∀ R : Fin 8192, (lab (ix1 R)).toNat < 32000) (R : Fin 8192) :
    val_main_v18 (F := Ideal) lab (ix1 R) = lab (ix1 R) := by
  rw [val_main_v18_apply, val_main_v15_apply, val_main_v17_apply, val_main_v14_apply, val_main_c_2_apply]
  exact sel_nonneg _ _ (by have := hlab R; omega)

/-- Column 0 of the scatter's indices is the row number, column 1 the label. -/
theorem indices_at (lab : IVec S8192 32) (hlab : ∀ R : Fin 8192, (lab (ix1 R)).toNat < 32000) (R : Fin 8192) :
    val_main_v21 (F := Ideal) lab (ix2 R 0) = BitVec.ofNat 32 R.val ∧ val_main_v21 (F := Ideal) lab (ix2 R 1) = lab (ix1 R) := by
  have h19 : idx_main_v19 (ix2 R (0 : Fin 1)) = ix1 R := funext fun a => Fin.ext (by match a with | ⟨0, _⟩ => rfl)
  have h20 : idx_main_v20 (ix2 R (0 : Fin 1)) = ix1 R := funext fun a => Fin.ext (by match a with | ⟨0, _⟩ => rfl)
  obtain ⟨c0, c1⟩ := concat_cols (val_main_v19 (F := Ideal)) (val_main_v20 (F := Ideal) lab) R
  unfold val_main_v21
  refine ⟨?_, ?_⟩
  · rw [c0, val_main_v19_apply, h19, rows_at]
  · rw [c1, val_main_v20_apply, h20, labels_at lab hlab]

/-! ## The scaled logits -/

/-- The scattered array at (R, j): the normalised logit, less ½ at the label's column. -/
theorem scattered_at (x : FVec Ideal S8192x32000 .f32) (lab : IVec S8192 32)
    (hlab : ∀ R : Fin 8192, (lab (ix1 R)).toNat < 32000) (R : Fin 8192) (j : Fin 32000) :
    val_main_v23 (F := Ideal) x lab (ix2 R j)
      = Ideal.div (x (ix2 R j)) (rowNorm (rowOf x R)) + (if j = labIdx (lab (ix1 R)) then wNegHalf else 0) := by
  have h6 : idx_main_v6 (ix2 R j) = ix2 R (0 : Fin 1) :=
    funext fun a => Fin.ext (by match a with | ⟨0, _⟩ => rfl | ⟨1, _⟩ => rfl)
  unfold val_main_v23
  rw [scatter_rows (val_main_v7 (F := Ideal) x) (val_main_v21 (F := Ideal) lab) (val_main_v22 (F := Ideal))
    (fun R' => (indices_at lab hlab R').1) (fun R' => by rw [(indices_at lab hlab R').2]; exact hlab R') R j]
  rw [(indices_at lab hlab R).2, val_main_v7_apply, val_main_v6_apply, h6, norm_at, val_main_v22_apply, val_main_cst_4_apply]
  rfl

/-- The reference's scaled logits are the specification's. -/
theorem scaled_at (x : FVec Ideal S8192x32000 .f32) (lab : IVec S8192 32)
    (hlab : ∀ R : Fin 8192, (lab (ix1 R)).toNat < 32000) (R : Fin 8192) (j : Fin 32000) :
    val_main_v25 (F := Ideal) x lab (ix2 R j) = refScaled (rowOf x R) (labIdx (lab (ix1 R))) j := by
  rw [val_main_v25_apply, scattered_at x lab hlab, val_main_v24_apply, val_main_cst_5_apply]
  rfl

/-! ## The log-softmax -/

/-- The shift the reference's log-softmax uses in row R: the row's maximum (joined with −∞). -/
def refShift (x : FVec Ideal S8192x32000 .f32) (lab : IVec S8192 32) (R : Fin 8192) : EReal :=
  val_main_call0_v2 (F := Ideal) x lab (ix1 R)

/-- The shifted logits. -/
theorem shifted_at (x : FVec Ideal S8192x32000 .f32) (lab : IVec S8192 32)
    (hlab : ∀ R : Fin 8192, (lab (ix1 R)).toNat < 32000) (R : Fin 8192) (j : Fin 32000) :
    val_main_call0_v5 (F := Ideal) x lab (ix2 R j) = refScaled (rowOf x R) (labIdx (lab (ix1 R))) j - refShift x lab R := by
  have h34 : idx_main_call0_v3 (idx_main_call0_v4 (ix2 R j)) = ix1 R :=
    funext fun a => Fin.ext (by match a with | ⟨0, _⟩ => rfl)
  rw [val_main_call0_v5_apply, scaled_at x lab hlab, val_main_call0_v4_apply, val_main_call0_v3_apply, h34]
  rfl

/-- The sum of the exponentials of a row's shifted logits. -/
theorem sumexp_at (x : FVec Ideal S8192x32000 .f32) (lab : IVec S8192 32)
    (hlab : ∀ R : Fin 8192, (lab (ix1 R)).toNat < 32000) (R : Fin 8192) :
    val_main_call0_v7 (F := Ideal) x lab (ix1 R)
      = ∑ k : Fin 32000, Ideal.exp (refScaled (rowOf x R) (labIdx (lab (ix1 R))) k - refShift x lab R) := by
  have hi : ∀ k : Fin 32000, idx_main_call0_v7 (ix1 R) k = ix2 R k := fun k =>
    funext fun a => Fin.ext (by match a with | ⟨0, _⟩ => rfl | ⟨1, _⟩ => rfl)
  rw [val_main_call0_v7_apply, val_main_call0_cst_1_apply]
  simp only [hi, val_main_call0_v6_apply, shifted_at x lab hlab, Ideal.hostUnary_exp_def, Ideal.ofBits_def,
    Ideal.ofBits_zero_f32, zero_add]

/-- The log-softmax at (R, j). -/
theorem logsoftmax_at (x : FVec Ideal S8192x32000 .f32) (lab : IVec S8192 32)
    (hlab : ∀ R : Fin 8192, (lab (ix1 R)).toNat < 32000) (R : Fin 8192) (j : Fin 32000) :
    val_main_v26 (F := Ideal) x lab (ix2 R j)
      = (refScaled (rowOf x R) (labIdx (lab (ix1 R))) j - refShift x lab R)
        - Ideal.log (∑ k : Fin 32000, Ideal.exp (refScaled (rowOf x R) (labIdx (lab (ix1 R))) k - refShift x lab R)) := by
  have h810 : idx_main_call0_v8 (idx_main_call0_v10 (ix2 R j)) = ix1 R :=
    funext fun a => Fin.ext (by match a with | ⟨0, _⟩ => rfl)
  rw [val_main_v26_apply, shifted_at x lab hlab, val_main_call0_v10_apply, val_main_call0_v9_apply, val_main_call0_v8_apply,
    h810, sumexp_at x lab hlab, Ideal.subf_def, Ideal.hostUnary_log_def]

/-! ## Taking the label's column -/

/-- The gather's start indices are the labels. -/
theorem starts_at (lab : IVec S8192 32) (hlab : ∀ R : Fin 8192, (lab (ix1 R)).toNat < 32000) (R : Fin 8192) :
    val_main_call1_v5 (F := Ideal) lab (ix3 R 0 0) = lab (ix1 R) := by
  have h5 : idx_main_call1_v5 (ix3 R (0 : Fin 1) (0 : Fin 1)) = ix2 R (0 : Fin 1) :=
    funext fun a => Fin.ext (by
      match a with
      | ⟨0, _⟩ => show ((R.val * 1 + 0) * 1 + 0) / 1 = R.val; omega
      | ⟨1, _⟩ => rfl)
  have h27 : idx_main_v27 (ix2 R (0 : Fin 1)) = ix1 R := funext fun a => Fin.ext (by match a with | ⟨0, _⟩ => rfl)
  rw [val_main_call1_v5_apply, h5, val_main_call1_v4_apply, val_main_call1_v1_apply, val_main_call1_v3_apply,
    val_main_v27_apply, h27, val_main_call1_v0_apply, val_main_call1_c_apply]
  exact sel_nonneg _ _ (by have := hlab R; omega)

/-- The in-range mask is set in every row. -/
theorem mask_at (lab : IVec S8192 32) (hlab : ∀ R : Fin 8192, (lab (ix1 R)).toNat < 32000) (R : Fin 8192) :
    val_main_call1_v12 (F := Ideal) lab (ix2 R 0) = 1#1 := by
  show Host.reduce IntOp.andi (val_main_call1_v11 (F := Ideal) lab) (constantI S_ 1 1#1)
    reducesTo_S8192x1x1_S8192x1_d2 h_S_ (ix2 R 0) = 1#1
  rw [and_unit, val_main_call1_v11_apply, val_main_call1_v7_apply, val_main_call1_v10_apply, starts_at lab hlab,
    val_main_call1_v6_apply, val_main_call1_c_2_apply, val_main_call1_v9_apply, val_main_call1_v8_apply,
    val_main_call1_c_1_apply]
  exact in_range_bits _ (hlab R)

/-- The taken element of row R is the log-softmax at the label's column. -/
theorem taken_at (x : FVec Ideal S8192x32000 .f32) (lab : IVec S8192 32)
    (hlab : ∀ R : Fin 8192, (lab (ix1 R)).toNat < 32000) (R : Fin 8192) :
    val_main_v28 (F := Ideal) x lab (ix2 R 0) = val_main_v26 (F := Ideal) x lab (ix2 R (labIdx (lab (ix1 R)))) := by
  rw [val_main_v28_apply, mask_at lab hlab, select_one]
  unfold val_main_call1_v13
  rw [gather_rows _ _ (fun R' => by rw [starts_at lab hlab]; exact hlab R') R, starts_at lab hlab]

/-! ## The rows' values and their mean -/

/-- The negated taken element of row R is the specification's row function, shifted by the row's maximum. -/
theorem row_at (x : FVec Ideal S8192x32000 .f32) (lab : IVec S8192 32)
    (hlab : ∀ R : Fin 8192, (lab (ix1 R)).toNat < 32000) (R : Fin 8192) :
    val_main_v30 (F := Ideal) x lab (ix1 R) = refRow (rowOf x R) (labIdx (lab (ix1 R))) (refShift x lab R) := by
  have h29 : idx_main_v29 (ix1 R) = ix2 R (0 : Fin 1) :=
    funext fun a => Fin.ext (by
      match a with
      | ⟨0, _⟩ => show R.val / 1 = R.val; omega
      | ⟨1, _⟩ => rfl)
  rw [val_main_v30_apply, val_main_v29_apply, h29, taken_at x lab hlab, logsoftmax_at x lab hlab]
  rfl

/-- A sum over the indices of a vector is the sum over its coordinate. -/
theorem sum_rows (g : S8192.Idx → EReal) : ∑ j : S8192.Idx, g j = ∑ R : Fin 8192, g (ix1 R) := by
  let e : S8192.Idx ≃ Fin 8192 :=
    { toFun := fun j => j 0, invFun := fun R => ix1 R, left_inv := fun j => (eq_ix1 j).symm, right_inv := fun _ => rfl }
  exact Fintype.sum_equiv e g (fun R => g (ix1 R)) (fun j => congrArg g (eq_ix1 j))

/-- With class indices for labels the reference's result is the mean over the rows of the row function, each row shifted by its own maximum. -/
theorem ref_value (x : FVec Ideal S8192x32000 .f32) (lab : IVec S8192 32) (hlab : ∀ R : Fin 8192, (lab (ix1 R)).toNat < 32000) :
    val_main_v32 (F := Ideal) x lab = fun _ => meanOf (fun R => refRow (rowOf x R) (labIdx (lab (ix1 R))) (refShift x lab R)) := by
  funext i
  rw [val_main_v32_apply, val_main_v31_apply, val_main_cst_6_apply, val_main_cst_7_apply, sum_rows]
  simp only [row_at x lab hlab, Ideal.hostDivf_def, Ideal.ofBits_def, Ideal.ofBits_zero_f32, zero_add]
  rfl

/-- On finite logits the shift is a real number. -/
theorem refShift_real (x : FVec Ideal S8192x32000 .f32) (lab : IVec S8192 32) (hlab : ∀ R : Fin 8192, (lab (ix1 R)).toNat < 32000)
    (hx : ∀ i, ∃ u : ℝ, x i = (u : EReal)) (R : Fin 8192) : ∃ μ : ℝ, refShift x lab R = (μ : EReal) := by
  obtain ⟨μ, hμ⟩ := rowmax_real (val_main_v25 (F := Ideal) x lab) R (fun j => by
    rw [scaled_at x lab hlab]
    exact refScaled_real (rowOf x R) _ (fun k => hx (ix2 R k)) j)
  refine ⟨μ, ?_⟩
  unfold refShift
  rw [val_main_call0_v2_apply, val_main_call0_v1_apply, val_main_call0_cst_0_apply]
  have h0 : val_main_call0_v0 (F := Ideal) x lab (ix1 R) = (μ : EReal) := hμ
  rw [h0, Ideal.maximumf_def, Ideal.ofBits_def, ofBits_neg_inf, max_bot_left]

end Cert.AamLoss

end
-- ==== Proof.PreFacts.lean ====
/-
  The printed precondition, read back: every logit is a real number and every label is a class index.

  The precondition is the conjunction of three "for all" statements, each printed as a reduction by `and`
  of an array of comparison bits:  |x| < +∞ at every logit,  0 ≤ label (signed) and  label < 32000 (signed)
  at every row. A finite absolute value excludes both infinities of the extended reals, so the logit is a
  real; a 32-bit word that is signed-nonnegative and signed-below 32000 has its unsigned value below 32000.
-/
import proofs.«430431_j75436805587459_3_alg».proof.Pre_finite_inputs
import proofs.«430431_j75436805587459_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.AamLoss

open Idealize.ShloMosaic Idealize.ShloMosaic.ValueIdx

/-- The word 0x7F800000 denotes +∞. -/
theorem ofBits_inf : Ideal.ofBits .f32 0x7F800000#32 = (⊤ : EReal) := by
  simp [Ideal.ofBits, Ideal.ieee]

/-- An extended real whose absolute value max a (−a) is below +∞ is a real number. -/
theorem real_of_abs_lt_top (a : EReal) (h : max a (-a) < ⊤) : ∃ u : ℝ, a = (u : EReal) := by
  induction a using EReal.rec with
  | bot => simp at h
  | coe u => exact ⟨u, rfl⟩
  | top => simp at h

/-- The comparison bit of |a| < +∞ being set says that a is a real number. -/
theorem real_of_finite_bit (a : Ideal .f32)
    (h : FloatOps.cmpf .olt (FloatOps.hostAbsf a) (FloatOps.ofBits (F := Ideal) .f32 0x7F800000#32) = 1#1) :
    ∃ u : ℝ, a = (u : EReal) := by
  have h' : Ideal.cmp .olt (max (a : EReal) (-(a : EReal))) (Ideal.ofBits .f32 0x7F800000#32) = 1#1 := h
  rw [ofBits_inf] at h'
  unfold Ideal.cmp at h'
  rw [StableHlo.Predicate.ofBool_eq_one_iff] at h'
  exact real_of_abs_lt_top a (of_decide_eq_true h')

/-- A 32-bit word that is nonnegative and below 32000 as a signed number is below 32000 as an unsigned one. -/
theorem toNat_lt_of_signed (a : BitVec 32) (h0 : IntOp.cmpi .sge a 0#32 = 1#1) (h1 : IntOp.cmpi .slt a 32000#32 = 1#1) :
    a.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  rw [BitVec.toInt_eq_toNat_cond] at h0 h1
  have hlt := a.isLt
  split at h0 <;> omega

/-- Under the precondition every logit is a real number and every label is a class index. -/
theorem pre_facts [Cert.Pre_finite_inputs.Facts]
    (x : FVec Ideal Cert.Pre_finite_inputs.S8192x32000 .f32) (lab : IVec Cert.Pre_finite_inputs.S8192 32)
    (h : Cert.Pre_finite_inputs.fn (F := Ideal) x lab = fun _ => 1#1) :
    (∀ i, ∃ u : ℝ, x i = (u : EReal)) ∧ (∀ R : Fin 8192, (lab (ix1 R)).toNat < 32000) := by
  haveI : Subsingleton Cert.Pre_finite_inputs.S_.Idx := ⟨fun a b => funext fun d => d.elim0⟩
  have h0 := congrFun h ValueIdx.ix0
  dsimp only [Cert.Pre_finite_inputs.fn] at h0
  obtain ⟨hAB, hC⟩ := IntOp.andi_eq_one.1 h0
  obtain ⟨hA, hB⟩ := IntOp.andi_eq_one.1 hAB
  refine ⟨fun i => ?_, fun R => ?_⟩
  · have hi := Host.reduce_andi_all _ _ _ _ _ hA i
    exact real_of_finite_bit (x i) hi
  · have hb := Host.reduce_andi_all _ _ _ _ _ hB (ix1 R)
    have hc := Host.reduce_andi_all _ _ _ _ _ hC (ix1 R)
    exact toNat_lt_of_signed (lab (ix1 R)) hb hc

end Cert.AamLoss

end
-- ==== Proof.lean ====
/-
  The additive-angular-margin loss: each row of the logits [8192, 32000] is L2-normalized (the norm clamped below by
  1e-12), the margin ½ is subtracted at the row's label, the row is scaled by 30, and the loss is the mean over the
  rows of the cross-entropy at the label.

  The kernel takes 128 rows per grid point and scans each row's 32000 columns twice, in ten chunks of 3200: first the
  sum of squares and the label's entry, then — with the per-row scale a = 30 / max(‖x‖, ε) and the FIXED shift 30 of
  the log-sum-exp — the sum of exp (x·a − 30 − 15·[column = label]); a row's value is
  (log Σexp + 30) − (a·x_label − 15), and the rows' values are averaged by the lines after the region. The reference
  normalizes, scatters −½ at (row, label), scales by 30, and takes −log_softmax at the label, the log-sum-exp shifted
  by the row's maximum.

  Over the extended reals the two are the same function wherever the logits are finite and every label is a class
  index 0 ≤ ℓ < 32000 — the precondition. The kernel's result is read off its generated frame run (the two loops by
  induction over their trips, the 64 blocks tiling the column, the mean by the lines after the region:
  KernelBlock, KernelOut, KernelArray, KernelValue); the reference's from its operations one at a time (RefRun,
  RefRead, RefScatter, RefGather, RefValue); a row's two values agree because the shift of a log-sum-exp cancels
  (RowAlgebra). The label test of the kernel (a column's 32-bit word equals the label word) is the test "the column
  is the label's class" when the label is a class index.
-/
import proofs.«430431_j75436805587459_3_alg».proof.Defs
import proofs.«430431_j75436805587459_3_alg».proof.Proof.Gen.Kernel
import proofs.«430431_j75436805587459_3_alg».proof.Proof.Gen.Kernel.Skeleton
import proofs.«430431_j75436805587459_3_alg».proof.Proof.Gen.Kernel.Loops
import proofs.«430431_j75436805587459_3_alg».proof.Proof.Gen.Kernel.Launch
import proofs.«430431_j75436805587459_3_alg».proof.Proof.Gen.Kernel.Points
import proofs.«430431_j75436805587459_3_alg».proof.Proof.Gen.Kernel.Frame
import proofs.«430431_j75436805587459_3_alg».proof.Proof.Gen.KernelIdeal
import proofs.«430431_j75436805587459_3_alg».proof.Proof.Gen.KernelIdeal.Skeleton
import proofs.«430431_j75436805587459_3_alg».proof.Proof.Gen.KernelIdeal.Loops
import proofs.«430431_j75436805587459_3_alg».proof.Proof.Gen.KernelIdeal.Launch
import proofs.«430431_j75436805587459_3_alg».proof.Proof.Gen.KernelIdeal.Points
import proofs.«430431_j75436805587459_3_alg».proof.Proof.Gen.KernelIdeal.Frame
import proofs.«430431_j75436805587459_3_alg».proof.Proof.Gen.ReferenceIdeal
import proofs.«430431_j75436805587459_3_alg».proof.Proof.Gen.Pre_finite_inputs
import proofs.«430431_j75436805587459_3_alg».proof.Proof.KernelValue
import proofs.«430431_j75436805587459_3_alg».proof.Proof.RefRun
import proofs.«430431_j75436805587459_3_alg».proof.Proof.RefValue
import proofs.«430431_j75436805587459_3_alg».proof.Proof.PreFacts
import proofs.«430431_j75436805587459_3_alg».proof.Proof.RowAlgebra
import Idealize.ShloMosaic.Adequacy
import Idealize.ShloMosaic.Init

noncomputable section

namespace Cert.Proof

open Idealize.ShloMosaic Idealize.ShloMosaic.TcCoe Idealize.ShloMosaic.ValueIdx Idealize.SL.Sem
open Cert.AamLoss Cert.KernelIdeal.BlockVal

/-- The word-level kernel runs and keeps its arguments: its generated frame. -/
theorem frame_kernel : Cert.frame_Kernel := fun m ρ _ => Cert.Kernel.Gen.frame m ρ

/-- The idealized kernel runs and keeps its arguments: its generated frame. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On finite logits with class-index labels both programs end at the mean over the rows of one row function:
    the kernel's with the label as a word, the reference's with the shift of its log-sum-exp at the row's maximum,
    a real number there; the two row values agree for every real shift. -/
theorem algebraic : Cert.algebraic_KernelIdeal_ReferenceIdeal := by
  intro m ρ m' ρ' hpre hagree
  refine ⟨_, Cert.KernelIdeal.ArrVal.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  obtain ⟨hx, hlab⟩ := pre_facts _ _ (hpre c)
  rw [ref_value _ _ hlab]
  funext _
  refine congrArg meanOf (funext fun R => ?_)
  obtain ⟨μ, hμ⟩ := refShift_real _ _ hlab hx R
  rw [hμ, kernelRowW_eq _ _ (hlab R)]
  exact (kernelRow_eq_refRow (rowOf _ R) _ (fun j => hx (ix2 R j)) μ).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
